-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000 : Shape := ⟨1, ![640000]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128 : S_.BroadcastsInDim S128 (![] : Fin 0 → Fin S128.rank)
  reducesTo_S128_S_d0 : S128.ReducesTo [0] S_

variable [Facts]

def fn_part1 {F : FTy → Type} [FloatOps F] (main_arg2 : IVec S640000 32) (main_v13 : IVec S_ 1) (main_v15 : IVec S640000 1) (main_c_5 : IVec S_ 1) : IVec S_ 1 :=
  let main_v16 : IVec S_ 1 := (fun x v => Host.reduce IntOp.andi x v reducesTo_S640000_S_d0 h_S_) main_v15 main_c_5
  let main_v17 : IVec S_ 1 := andi main_v13 main_v16
  let main_c_6 : IVec S_ 32 := constantI S_ 32 40000#32
  let main_v18 : IVec S640000 32 := broadcastInDim S640000 ![] bcast_S_S640000 main_c_6
  let main_v19 : IVec S640000 1 := cmpi .slt main_arg2 main_v18
  let main_c_7 : IVec S_ 1 := constantI S_ 1 1#1
  let main_v20 : IVec S_ 1 := (fun x v => Host.reduce IntOp.andi x v reducesTo_S640000_S_d0 h_S_) main_v19 main_c_7
  let main_v21 : IVec S_ 1 := andi main_v17 main_v20
  main_v21

def fn {F : FTy → Type} [FloatOps F] (main_arg0 : FVec F S40000x128 .f32) (main_arg1 : IVec S640000 32) (main_arg2 : IVec S640000 32) (main_arg3 : FVec F S640000 .f32) (main_arg4 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000 .f32 := Host.absf main_arg3
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S640000 32 := broadcastInDim S640000 ![] bcast_S_S640000 main_c_4
  let main_v15 : IVec S640000 1 := cmpi .sge main_arg2 main_v14
  let main_c_5 : IVec S_ 1 := constantI S_ 1 1#1
  fn_part1 (F := F) main_arg2 main_v13 main_v15 main_c_5
-- ==== Kernel.lean ====
abbrev S40000x128 : Shape := ⟨2, ![40000, 128]⟩
abbrev S640000 : Shape := ⟨1, ![640000]⟩
abbrev S128 : Shape := ⟨1, ![128]⟩
abbrev S_ : Shape := ⟨0, ![]⟩
abbrev S40960x128 : Shape := ⟨2, ![40960, 128]⟩
abbrev S1024 : Shape := ⟨1, ![1024]⟩
abbrev S1024x128 : Shape := ⟨2, ![1024, 128]⟩
abbrev S1x2048 : Shape := ⟨2, ![1, 2048]⟩
abbrev S1024x1 : Shape := ⟨2, ![1024, 1]⟩
abbrev S1024x2048 : Shape := ⟨2, ![1024, 2048]⟩
abbrev S2048x128 : Shape := ⟨2, ![2048, 128]⟩
abbrev S40000 : Shape := ⟨1, ![40000]⟩
abbrev S640000x1 : Shape := ⟨2, ![640000, 1]⟩
abbrev S40000x1 : Shape := ⟨2, ![40000, 1]⟩
abbrev S1x128 : Shape := ⟨2, ![1, 128]⟩

abbrev nBuf : Space → Nat
  | .hbm => 36
  | .vmem => 9
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S640000, .f32⟩
  | .hbm, ⟨4, _⟩ => ⟨S128, .f32⟩
  | .hbm, ⟨5, _⟩ => ⟨S_, .i32⟩
  | .hbm, ⟨6, _⟩ => ⟨S_, .f32⟩
  | .hbm, ⟨7, _⟩ => ⟨S40960x128, .f32⟩
  | .hbm, ⟨8, _⟩ => ⟨S40960x128, .bf16⟩
  | .hbm, ⟨9, _⟩ => ⟨S40960x128, .f32⟩
  | .hbm, ⟨10, _⟩ => ⟨S40000x128, .f32⟩
  | .hbm, ⟨11, _⟩ => ⟨S_, .f32⟩
  | .hbm, ⟨12, _⟩ => ⟨S40000, .f32⟩
  | .hbm, ⟨13, _⟩ => ⟨S640000x1, .i32⟩
  | .hbm, ⟨14, _⟩ => ⟨S40000, .f32⟩
  | .hbm, ⟨15, _⟩ => ⟨S40000x1, .f32⟩
  | .hbm, ⟨16, _⟩ => ⟨S_, .f32⟩
  | .hbm, ⟨17, _⟩ => ⟨S40000x1, .f32⟩
  | .hbm, ⟨18, _⟩ => ⟨S40000x1, .i1⟩
  | .hbm, ⟨19, _⟩ => ⟨S_, .f32⟩
  | .hbm, ⟨20, _⟩ => ⟨S40000x1, .f32⟩
  | .hbm, ⟨21, _⟩ => ⟨S40000x1, .i1⟩
  | .hbm, ⟨22, _⟩ => ⟨S_, .f32⟩
  | .hbm, ⟨23, _⟩ => ⟨S_, .f32⟩
  | .hbm, ⟨24, _⟩ => ⟨S40000x1, .f32⟩
  | .hbm, ⟨25, _⟩ => ⟨S40000x1, .f32⟩
  | .hbm, ⟨26, _⟩ => ⟨S40000x128, .f32⟩
  | .hbm, ⟨27, _⟩ => ⟨S40000x128, .f32⟩
  | .hbm, ⟨28, _⟩ => ⟨S_, .f32⟩
  | .hbm, ⟨29, _⟩ => ⟨S_, .f32⟩
  | .hbm, ⟨30, _⟩ => ⟨S40000x128, .i1⟩
  | .hbm, ⟨31, _⟩ => ⟨S40000x128, .f32⟩
  | .hbm, ⟨32, _⟩ => ⟨S40000x128, .f32⟩
  | .hbm, ⟨33, _⟩ => ⟨S1x128, .f32⟩
  | .hbm, ⟨34, _⟩ => ⟨S40000x128, .f32⟩
  | .hbm, ⟨35, _⟩ => ⟨S40000x128, .f32⟩
  | .local _ .vmem, ⟨0, _⟩ => ⟨S40960x128, .bf16⟩
  | .local _ .vmem, ⟨1, _⟩ => ⟨S1024, .i32⟩
  | .local _ .vmem, ⟨2, _⟩ => ⟨S1024, .i32⟩
  | .local _ .vmem, ⟨3, _⟩ => ⟨S1024, .i32⟩
  | .local _ .vmem, ⟨4, _⟩ => ⟨S1024, .i32⟩
  | .local _ .vmem, ⟨5, _⟩ => ⟨S1024, .f32⟩
  | .local _ .vmem, ⟨6, _⟩ => ⟨S1024, .f32⟩
  | .local _ .vmem, ⟨7, _⟩ => ⟨S40960x128, .f32⟩
  | .local _ .vmem, ⟨8, _⟩ => ⟨S1024x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call1_v0 : Ref sig .tc := ⟨.hbm, 23, rfl⟩
abbrev main_call1_v1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![625], ![false]⟩

@[reducible] def k0_t1_loop : Scf.Loop 32 :=
  let c0_i32_5 : BitVec 32 := 0#32
  let c20_i32 : BitVec 32 := 20#32
  let v10 : BitVec 32 := Scalar.addi c0_i32_5 c20_i32
  let c1_i32 : BitVec 32 := 1#32
  ⟨c0_i32_5, v10, c1_i32⟩
def k0_mult1 (k0_t1 : Fin k0_t1_loop.trips) : BitVec 32 :=
  let c0_i32_14 : BitVec 32 := 0#32
  let c0_i32_5 : BitVec 32 := 0#32
  let c1_i32 : BitVec 32 := 1#32
  let arg7 : BitVec 32 := Scf.iv c0_i32_5 c1_i32 k0_t1
  let c1_i32_13 : BitVec 32 := 1#32
  let v17 : BitVec 32 := Scalar.muli arg7 c1_i32_13
  let v18 : BitVec 32 := Scalar.addi c0_i32_14 v17
  let c2048_i32 : BitVec 32 := 2048#32
  let v19 : BitVec 32 := Scalar.muli v18 c2048_i32
  v19
def k0_off1 (k0_t1 : Fin k0_t1_loop.trips) : Fin 2 → Nat :=
  let c0_i32_14 : BitVec 32 := 0#32
  let c0_i32_5 : BitVec 32 := 0#32
  let c1_i32 : BitVec 32 := 1#32
  let arg7 : BitVec 32 := Scf.iv c0_i32_5 c1_i32 k0_t1
  let c1_i32_13 : BitVec 32 := 1#32
  let v17 : BitVec 32 := Scalar.muli arg7 c1_i32_13
  let v18 : BitVec 32 := Scalar.addi c0_i32_14 v17
  let c2048_i32 : BitVec 32 := 2048#32
  let v19 : BitVec 32 := Scalar.muli v18 c2048_i32
  let v20 : BitVec 32 := v19
  let v31 : Index := Scalar.indexCast v20
  let c0_15 : Index := 0#32
  ![v31.toNat, 0]
@[reducible] def k0_t2_loop : Scf.Loop 32 :=
  let c0_i32_9 : BitVec 32 := 0#32
  let c20_i32_10 : BitVec 32 := 20#32
  let v16 : BitVec 32 := Scalar.addi c0_i32_9 c20_i32_10
  let c1_i32_11 : BitVec 32 := 1#32
  ⟨c0_i32_9, v16, c1_i32_11⟩
def k0_mult2 (k0_t2 : Fin k0_t2_loop.trips) : BitVec 32 :=
  let c0_i32_14 : BitVec 32 := 0#32
  let c0_i32_9 : BitVec 32 := 0#32
  let c1_i32_11 : BitVec 32 := 1#32
  let arg7 : BitVec 32 := Scf.iv c0_i32_9 c1_i32_11 k0_t2
  let c1_i32_13 : BitVec 32 := 1#32
  let v17 : BitVec 32 := Scalar.muli arg7 c1_i32_13
  let v18 : BitVec 32 := Scalar.addi c0_i32_14 v17
  let c2048_i32 : BitVec 32 := 2048#32
  let v19 : BitVec 32 := Scalar.muli v18 c2048_i32
  v19
def k0_off2 (k0_t2 : Fin k0_t2_loop.trips) : Fin 2 → Nat :=
  let c0_i32_14 : BitVec 32 := 0#32
  let c0_i32_9 : BitVec 32 := 0#32
  let c1_i32_11 : BitVec 32 := 1#32
  let arg7 : BitVec 32 := Scf.iv c0_i32_9 c1_i32_11 k0_t2
  let c1_i32_13 : BitVec 32 := 1#32
  let v17 : BitVec 32 := Scalar.muli arg7 c1_i32_13
  let v18 : BitVec 32 := Scalar.addi c0_i32_14 v17
  let c2048_i32 : BitVec 32 := 2048#32
  let v19 : BitVec 32 := Scalar.muli v18 c2048_i32
  let v20 : BitVec 32 := v19
  let v32 : Index := Scalar.indexCast v20
  let c0_16 : Index := 0#32
  ![v32.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S40960x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S40960x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  pads_S40000x128_S40960x128_09600_000 : S40000x128.Pads (![0, 0] : Fin 2 → Nat) ![960, 0] ![0, 0] S40960x128
  h_S_ : 0 < S_.numel
  bitsLt_bf16_f32 : FTy.bits .bf16 < FTy.bits .f32
  inb_S40960x128_S40960x128_0_0 : ∀ a, (![0, 0] : Fin 2 → Nat) a + S40960x128.size a ≤ S40960x128.size a
  h_S40960x128 : 0 < S40960x128.numel
  inb_S1024_S1024_0 : ∀ a, (![0] : Fin 1 → Nat) a + S1024.size a ≤ S1024.size a
  h_S1024 : 0 < S1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  iota_S1x2048_d1_w32 : S1x2048.Iotas .tc 32 [1]
  shapeCasts_S1024_S1024x1 : S1024.ShapeCasts S1024x1
  broadcasts_S1024x1_S1024x2048 : S1024x1.Broadcasts S1024x2048
  broadcasts_S1x2048_S1024x2048 : S1x2048.Broadcasts S1024x2048
  natLt_1_32 : 1 < 32
  h_S2048x128 : 0 < S2048x128.numel
  shapeCasts_S2048x128_S2048x128 : S2048x128.ShapeCasts S2048x128
  broadcasts_S1024x1_S1024x128 : S1024x1.Broadcasts S1024x128
  slices_S40960x128_S40000x128_0_0 : S40960x128.Slices ![0, 0] S40000x128
  bcast_S_S40000 : S_.BroadcastsInDim S40000 (![] : Fin 0 → Fin S40000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  bcast_S_S40000x1 : S_.BroadcastsInDim S40000x1 (![] : Fin 0 → Fin S40000x1.rank)
  bcast_S40000x1_S40000x128_0_1 : S40000x1.BroadcastsInDim S40000x128 (![0, 1] : Fin 2 → Fin S40000x128.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  dot_S1024x2048_S2048x128_S1024x128_1_0_0_1_n_n_wf : DotDims.WF S1024x2048 S2048x128 S1024x128 [1] [0] [0] [1] [] []
  dot_S1024x2048_S1024x128_S2048x128_0_0_1_1_n_n_wf : DotDims.WF S1024x2048 S1024x128 S2048x128 [0] [0] [1] [1] [] []
  scatter_S40000_S640000x1_S640000_n_0_0_1_wf : ScatterDims.WF S40000 S640000x1 S640000 [] [0] [0] 1
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048x128.size a ≤ S40960x128.size a
  k0_t2_ok : k0_t2_loop.OK
  k0_mult2_dvd : ∀ k0_t2 : Fin k0_t2_loop.trips, 2048 ∣ (k0_mult2 k0_t2).toNat
  k0_off2_inb : ∀ k0_t2 : Fin k0_t2_loop.trips, ∀ a, (k0_off2 k0_t2) a + S2048x128.size a ≤ S40960x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S40960x128.size a ≤ S40960x128.size a
  hwx0_0 : ∀ i : grid0.Coords, EltTy.bits .bf16 = 32 ∨ (Rect.block (s := S40960x128) S40960x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S640000.size a
  hwx0_1 : ∀ i : grid0.Coords, EltTy.bits .i32 = 32 ∨ (Rect.block (s := S640000) S1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S640000.size a
  hwx0_2 : ∀ i : grid0.Coords, EltTy.bits .i32 = 32 ∨ (Rect.block (s := S640000) S1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S640000.size a
  hwx0_3 : ∀ i : grid0.Coords, EltTy.bits .f32 = 32 ∨ (Rect.block (s := S640000) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S40960x128.size a ≤ S40960x128.size a
  hwx0_4 : ∀ i : grid0.Coords, EltTy.bits .f32 = 32 ∨ (Rect.block (s := S40960x128) S40960x128.size (cc0_transform_4 i) (hinb0_4 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x2048_S1024x128_S2048x128_0_0_1_1_n_n : DotDims S1024x2048 S1024x128 S2048x128 where
  lhsContracting := [0]
  rhsContracting := [0]
  lhsNonContracting := [1]
  rhsNonContracting := [1]
  lhsBatch := []
  rhsBatch := []
  wf := dot_S1024x2048_S1024x128_S2048x128_0_0_1_1_n_n_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf

abbrev win0_0 : Pipeline.Window sig grid0 :=
  Pipeline.Window.ofSpec (Memref.whole main_v1) S40960x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S40960x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S40000x128 : Shape := ⟨2, ![40000, 128]⟩
abbrev S640000 : Shape := ⟨1, ![640000]⟩
abbrev S128 : Shape := ⟨1, ![128]⟩
abbrev S640000x1 : Shape := ⟨2, ![640000, 1]⟩
abbrev S_ : Shape := ⟨0, ![]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩

abbrev nBuf : Space → Nat
  | .hbm => 46
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S640000, .f32⟩
  | .hbm, ⟨4, _⟩ => ⟨S128, .f32⟩
  | .hbm, ⟨5, _⟩ => ⟨S640000x1, .f32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S640000x128, .f32⟩
  | .hbm, ⟨16, _⟩ => ⟨S640000x128, .f32⟩
  | .hbm, ⟨17, _⟩ => ⟨S_, .f32⟩
  | .hbm, ⟨18, _⟩ => ⟨S40000x128, .f32⟩
  | .hbm, ⟨19, _⟩ => ⟨S640000x1, .i32⟩
  | .hbm, ⟨20, _⟩ => ⟨S40000x128, .f32⟩
  | .hbm, ⟨21, _⟩ => ⟨S_, .f32⟩
  | .hbm, ⟨22, _⟩ => ⟨S40000, .f32⟩
  | .hbm, ⟨23, _⟩ => ⟨S640000x1, .i32⟩
  | .hbm, ⟨24, _⟩ => ⟨S40000, .f32⟩
  | .hbm, ⟨25, _⟩ => ⟨S40000x1, .f32⟩
  | .hbm, ⟨26, _⟩ => ⟨S_, .f32⟩
  | .hbm, ⟨27, _⟩ => ⟨S40000x1, .f32⟩
  | .hbm, ⟨28, _⟩ => ⟨S40000x1, .i1⟩
  | .hbm, ⟨29, _⟩ => ⟨S_, .f32⟩
  | .hbm, ⟨30, _⟩ => ⟨S40000x1, .f32⟩
  | .hbm, ⟨31, _⟩ => ⟨S40000x1, .i1⟩
  | .hbm, ⟨32, _⟩ => ⟨S_, .f32⟩
  | .hbm, ⟨33, _⟩ => ⟨S_, .f32⟩
  | .hbm, ⟨34, _⟩ => ⟨S40000x1, .f32⟩
  | .hbm, ⟨35, _⟩ => ⟨S40000x1, .f32⟩
  | .hbm, ⟨36, _⟩ => ⟨S40000x128, .f32⟩
  | .hbm, ⟨37, _⟩ => ⟨S40000x128, .f32⟩
  | .hbm, ⟨38, _⟩ => ⟨S_, .f32⟩
  | .hbm, ⟨39, _⟩ => ⟨S_, .f32⟩
  | .hbm, ⟨40, _⟩ => ⟨S40000x128, .i1⟩
  | .hbm, ⟨41, _⟩ => ⟨S40000x128, .f32⟩
  | .hbm, ⟨42, _⟩ => ⟨S40000x128, .f32⟩
  | .hbm, ⟨43, _⟩ => ⟨S1x128, .f32⟩
  | .hbm, ⟨44, _⟩ => ⟨S40000x128, .f32⟩
  | .hbm, ⟨45, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]

class Facts₀ : Prop where
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S_S40000x1 : S_.BroadcastsInDim S40000x1 (![] : Fin 0 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf

class Facts : Prop extends Facts₀ where

variable [Facts]
-- ==== Proof.Trips.lean ====
/-
  What one trip of each of the kernel body's two loops stores, and what the body's stores to the output are in each of
  its two cases, read off the runs of the body.

  A trip of the first loop stores one block through the whole scratch: the gather chunk's value of the column words,
  the trip's 2048 table rows and what the scratch held. A trip of the second loop stores one block through rows
  2048 k .. 2048 k + 2047 of the output: the scatter chunk's value of the row words, the weights, the gathered block and
  what those rows held. The body's stores to the output are the second loop's 20 trips, over the zero fill at the first
  grid point and over what the point before left at every other.
-/
import proofs.«402506_j36644660969839_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A whole block of 1024 entries loaded from a staging buffer. -/
abbrev ld1024 {e : EltTy} (a : Memref sig .tc .vmem S1024 e) (f : BufTy.Contents (Elt F) a.view.ty) : Vec F S1024 e :=
  View.readAt (Elt F) a.view (Rect.unit (s := S1024) ![0] S1024.size inb_S1024_S1024_0).toLoadRect f
/-- The whole scratch loaded. -/
abbrev ldScr (arg6 : Memref sig .tc .vmem S1024x128 .f32) (f : BufTy.Contents (Elt F) arg6.view.ty) : Vec F S1024x128 .f32 :=
  View.readAt (Elt F) arg6.view (Rect.unit (s := S1024x128) ![0, 0] S1024x128.size inb_S1024x128_S1024x128_0_0).toLoadRect f
/-- The table's rows of trip k loaded. -/
abbrev ldTbl (arg1 : Memref sig .tc .vmem S40960x128 .bf16) (k : Fin k0_t1_loop.trips) (f : BufTy.Contents (Elt F) arg1.view.ty) :
    Vec F S2048x128 .bf16 :=
  View.readAt (Elt F) arg1.view (Rect.unit (s := S40960x128) (k0_off1 k) S2048x128.size (k0_off1_inb k)).toLoadRect f
/-- The output's rows of trip k loaded. -/
abbrev ldOut (arg5 : Memref sig .tc .vmem S40960x128 .f32) (k : Fin k0_t2_loop.trips) (f : BufTy.Contents (Elt F) arg5.view.ty) :
    Vec F S2048x128 .f32 :=
  View.readAt (Elt F) arg5.view (Rect.unit (s := S40960x128) (k0_off2 k) S2048x128.size (k0_off2_inb k)).toLoadRect f

/-- The zero fill of the scratch, as a store. -/
abbrev scrFill : List (View.Piece (Elt F) S1024x128 .f32) :=
  [⟨Rect.unit (s := S1024x128) ![0, 0] S1024x128.size inb_S1024x128_S1024x128_0_0, k0_pay2⟩]
/-- The zero fill of the output, as a store. -/
abbrev outFill : List (View.Piece (Elt F) S40960x128 .f32) :=
  [⟨Rect.unit (s := S40960x128) ![0, 0] S40960x128.size inb_S40960x128_S40960x128_0_0, k0_pay1⟩]

/-- One trip of the gather loop stores, through the whole scratch, the chunk's value of the trip's table rows and of
    what the scratch held. -/
theorem tripL1_eq (𝒱 : Variants) (c : Dev nD) (bd : Option 𝒱.V) (i : grid0.Coords) (arg1 : Memref sig .tc .vmem S40960x128 .bf16) (harg1 : arg1.IsWhole) (arg2 : Memref sig .tc .vmem S1024 .i32) (harg2 : arg2.IsWhole) (arg3 : Memref sig .tc .vmem S1024 .i32) (harg3 : arg3.IsWhole) (arg4 : Memref sig .tc .vmem S1024 .f32) (harg4 : arg4.IsWhole) (arg5 : Memref sig .tc .vmem S40960x128 .f32) (harg5 : arg5.IsWhole) (arg6 : Memref sig .tc .vmem S1024x128 .f32) (harg6 : arg6.IsWhole) (v3 : Vec F S1024 .i32)
    (X_arg1 : BufTy.Contents (Elt F) arg1.view.ty) (k : Fin k0_t1_loop.trips) (f : BufTy.Contents (Elt F) arg6.view.ty) :
    tripL_k0_t1 (F := F) 𝒱 c bd i arg1 harg1 arg2 harg2 arg3 harg3 arg4 harg4 arg5 harg5 arg6 harg6 v3 X_arg1 k f
      = [⟨Rect.unit (s := S1024x128) ![0, 0] S1024x128.size inb_S1024x128_S1024x128_0_0,
          k0_pay3 v3 k (ldTbl arg1 k X_arg1) (ldScr arg6 f)⟩] := by
  unfold tripL_k0_t1 trip_k0_t1
  rfl

/-- One trip of the scatter loop stores, through the trip's 2048 rows of the output, the chunk's value of what those
    rows held. -/
theorem tripL2_eq (𝒱 : Variants) (c : Dev nD) (bd : Option 𝒱.V) (i : grid0.Coords) (arg1 : Memref sig .tc .vmem S40960x128 .bf16) (harg1 : arg1.IsWhole) (arg2 : Memref sig .tc .vmem S1024 .i32) (harg2 : arg2.IsWhole) (arg3 : Memref sig .tc .vmem S1024 .i32) (harg3 : arg3.IsWhole) (arg4 : Memref sig .tc .vmem S1024 .f32) (harg4 : arg4.IsWhole) (arg5 : Memref sig .tc .vmem S40960x128 .f32) (harg5 : arg5.IsWhole) (arg6 : Memref sig .tc .vmem S1024x128 .f32) (harg6 : arg6.IsWhole) (v4 : Vec F S1024 .i32)
    (v5 : Vec F S1024 .f32) (v12 : Vec F S1024x128 .f32) (k : Fin k0_t2_loop.trips) (f : BufTy.Contents (Elt F) arg5.view.ty) :
    tripL_k0_t2 (F := F) 𝒱 c bd i arg1 harg1 arg2 harg2 arg3 harg3 arg4 harg4 arg5 harg5 arg6 harg6 v4 v5 v12 k f
      = [⟨Rect.unit (s := S40960x128) (k0_off2 k) S2048x128.size (k0_off2_inb k),
          k0_pay4 v4 v5 v12 k (ldOut arg5 k f)⟩] := by
  unfold tripL_k0_t2 trip_k0_t2
  rfl

/-- The gathered block the scatter loop reads: the scratch after the zero fill and the gather loop's trips. -/
abbrev gathered (c : Dev nD) (i : grid0.Coords) (arg1 : Memref sig .tc .vmem S40960x128 .bf16) (harg1 : arg1.IsWhole) (arg2 : Memref sig .tc .vmem S1024 .i32) (harg2 : arg2.IsWhole) (arg3 : Memref sig .tc .vmem S1024 .i32) (harg3 : arg3.IsWhole) (arg4 : Memref sig .tc .vmem S1024 .f32) (harg4 : arg4.IsWhole) (arg5 : Memref sig .tc .vmem S40960x128 .f32) (harg5 : arg5.IsWhole) (arg6 : Memref sig .tc .vmem S1024x128 .f32) (harg6 : arg6.IsWhole)
    (x0 : Vec F S40960x128 .bf16) (x1 : Vec F S1024 .i32) : Vec F S1024x128 .f32 :=
  ldScr arg6 (arg6.view.writes (Elt F) arg6.view.junk
    (pb_k0_t1 Variants.none c none i arg1 harg1 arg2 harg2 arg3 harg3 arg4 harg4 arg5 harg5 arg6 harg6 (ld1024 arg2 (harg2.unread x1)) (harg1.unread x0)
        (arg6.view.writes (Elt F) arg6.view.junk scrFill) (Scf.trips k0_t1_loop.lb k0_t1_loop.ub k0_t1_loop.st) ++ scrFill))

/-- At a later grid point the body's stores to the output are the scatter loop's trips over what the point before left. -/
theorem runB_pieces (c : Dev nD) (i : grid0.Coords) (arg1 : Memref sig .tc .vmem S40960x128 .bf16) (harg1 : arg1.IsWhole) (arg2 : Memref sig .tc .vmem S1024 .i32) (harg2 : arg2.IsWhole) (arg3 : Memref sig .tc .vmem S1024 .i32) (harg3 : arg3.IsWhole) (arg4 : Memref sig .tc .vmem S1024 .f32) (harg4 : arg4.IsWhole) (arg5 : Memref sig .tc .vmem S40960x128 .f32) (harg5 : arg5.IsWhole) (arg6 : Memref sig .tc .vmem S1024x128 .f32) (harg6 : arg6.IsWhole) (hc0 : ¬cond0_0 i)
    (x0 : Vec F S40960x128 .bf16) (x1 : Vec F S1024 .i32) (x2 : Vec F S1024 .i32) (x3 : Vec F S1024 .f32) (xo4 : Vec F S40960x128 .f32) :
    (kernelRun0_B c i arg1 harg1 arg2 harg2 arg3 harg3 arg4 harg4 arg5 harg5 arg6 harg6 hc0 x0 x1 x2 x3 xo4).1
      = pb_k0_t2 Variants.none c none i arg1 harg1 arg2 harg2 arg3 harg3 arg4 harg4 arg5 harg5 arg6 harg6 (ld1024 arg3 (harg3.unread x2)) (ld1024 arg4 (harg4.unread x3))
          (gathered c i arg1 harg1 arg2 harg2 arg3 harg3 arg4 harg4 arg5 harg5 arg6 harg6 x0 x1) (harg5.unread xo4) (Scf.trips (0#32) (Scalar.addi 0#32 20#32) 1#32) := by
  unfold kernelRun0_B
  dsimp only
  sl_unfold_words
  rfl

/-- At the first grid point they are the scatter loop's trips over the zero fill, and the zero fill. -/
theorem runA_pieces (c : Dev nD) (i : grid0.Coords) (arg1 : Memref sig .tc .vmem S40960x128 .bf16) (harg1 : arg1.IsWhole) (arg2 : Memref sig .tc .vmem S1024 .i32) (harg2 : arg2.IsWhole) (arg3 : Memref sig .tc .vmem S1024 .i32) (harg3 : arg3.IsWhole) (arg4 : Memref sig .tc .vmem S1024 .f32) (harg4 : arg4.IsWhole) (arg5 : Memref sig .tc .vmem S40960x128 .f32) (harg5 : arg5.IsWhole) (arg6 : Memref sig .tc .vmem S1024x128 .f32) (harg6 : arg6.IsWhole) (hc0 : cond0_0 i)
    (x0 : Vec F S40960x128 .bf16) (x1 : Vec F S1024 .i32) (x2 : Vec F S1024 .i32) (x3 : Vec F S1024 .f32) :
    (kernelRun0_A c i arg1 harg1 arg2 harg2 arg3 harg3 arg4 harg4 arg5 harg5 arg6 harg6 hc0 x0 x1 x2 x3).1
      = pb_k0_t2 Variants.none c none i arg1 harg1 arg2 harg2 arg3 harg3 arg4 harg4 arg5 harg5 arg6 harg6 (ld1024 arg3 (harg3.unread x2)) (ld1024 arg4 (harg4.unread x3))
          (gathered c i arg1 harg1 arg2 harg2 arg3 harg3 arg4 harg4 arg5 harg5 arg6 harg6 x0 x1) (arg5.view.writes (Elt F) arg5.view.junk outFill) (Scf.trips (0#32) (Scalar.addi 0#32 20#32) 1#32)
        ++ outFill := by
  unfold kernelRun0_A
  dsimp only
  sl_unfold_words
  rfl

end Cert.KernelIdeal.Gen

end
-- ==== Proof.Loops.lean ====
/-
  The two loops of the kernel body as recursions on what their buffers hold.

  The scratch after the zero fill and k trips of the gather loop holds the gather chunk's value of trip k - 1 applied to
  what it held after k - 1 trips: every trip stores the whole scratch. The output after k trips of the scatter loop holds,
  in rows 2048 (k - 1) .. 2048 k - 1, the scatter chunk's value of those rows as they were, and everywhere else what it
  held after k - 1 trips: trip k - 1 stores exactly those rows.
-/
import proofs.«402506_j36644660969839_1_alg».proof.Proof.Trips
import Idealize.ShloMosaic.Lib.WritesUnit
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.ValueIdx
open Idealize.SL.Sem

variable {F : FTy → Type} [FloatOps F]

theorem trips1_eq : k0_t1_loop.trips = 20 := by decide
theorem trips2_eq : k0_t2_loop.trips = 20 := by decide

theorem zero2 : (![0, 0] : Fin 2 → ℕ) = fun _ => 0 := by
  funext a; match a with | ⟨0, _⟩ => rfl | ⟨1, _⟩ => rfl
theorem zero1 : (![0] : Fin 1 → ℕ) = fun _ => 0 := by
  funext a; match a with | ⟨0, _⟩ => rfl

/-- A store through the whole shape at zero offsets, the newest of a list, reads back as its payload. -/
theorem read_writes_cons_whole {sig : RefSig} {κ : Kind} {sp : Space} {S : Shape} {e : EltTy} {Val : EltTy → Type}
    {off : Fin S.rank → ℕ} (h : off = fun _ => 0) (inb : ∀ a, off a + S.size a ≤ S.size a)
    (v : View sig κ sp S e) (f : v.ty.Contents Val) (w : S.Idx → Val e) (L : List (View.Piece Val S e)) :
    v.read Val (v.writes Val f ((⟨Rect.unit off S.size inb, w⟩ : View.Piece Val S e) :: L)) = w := by
  subst h
  funext y
  have hh := View.read_writes_cons_emb v f (Rect.whole S) w L y
  rwa [Rect.emb_whole_apply] at hh

/-- Loading the whole scratch reads its contents. -/
theorem ldScr_eq (arg6 : Memref sig .tc .vmem S1024x128 .f32) (f : BufTy.Contents (Elt F) arg6.view.ty) :
    ldScr (F := F) arg6 f = arg6.view.read (Elt F) f :=
  View.ld_unit_zero (S := S1024x128) zero2 _ _

/-- Loading a whole block of 1024 entries that holds x reads x. -/
theorem ld1024_unread {e : EltTy} (a : Memref sig .tc .vmem S1024 e) (ha : a.IsWhole) (x : Vec F S1024 e) :
    ld1024 (F := F) a (ha.unread x) = x := by
  show View.ld (a.view.read (Elt F) (ha.unread x)) (Rect.unit (s := S1024) ![0] S1024.size inb_S1024_S1024_0) = x
  rw [ha.read_unread]
  exact View.ld_unit_zero (S := S1024) zero1 _ _

section Gather

variable (c : Dev nD) (i : grid0.Coords) (arg1 : Memref sig .tc .vmem S40960x128 .bf16) (harg1 : arg1.IsWhole) (arg2 : Memref sig .tc .vmem S1024 .i32) (harg2 : arg2.IsWhole) (arg3 : Memref sig .tc .vmem S1024 .i32) (harg3 : arg3.IsWhole) (arg4 : Memref sig .tc .vmem S1024 .f32) (harg4 : arg4.IsWhole) (arg5 : Memref sig .tc .vmem S40960x128 .f32) (harg5 : arg5.IsWhole) (arg6 : Memref sig .tc .vmem S1024x128 .f32) (harg6 : arg6.IsWhole) (v3 : Vec F S1024 .i32) (X1 : BufTy.Contents (Elt F) arg1.view.ty)

/-- What the scratch holds after the zero fill and k trips of the gather loop. -/
def scrAt (k : ℕ) : Vec F S1024x128 .f32 :=
  arg6.view.read (Elt F) (arg6.view.writes (Elt F) (arg6.view.writes (Elt F) arg6.view.junk scrFill)
    (pb_k0_t1 Variants.none c none i arg1 harg1 arg2 harg2 arg3 harg3 arg4 harg4 arg5 harg5 arg6 harg6 v3 X1 (arg6.view.writes (Elt F) arg6.view.junk scrFill) k))

theorem scrAt_zero : scrAt c i arg1 harg1 arg2 harg2 arg3 harg3 arg4 harg4 arg5 harg5 arg6 harg6 v3 X1 0 = k0_pay2 (F := F) := by
  unfold scrAt
  rw [pb_k0_t1.eq_1, View.writes_nil]
  exact read_writes_cons_whole (S := S1024x128) (Val := Elt F) zero2 inb_S1024x128_S1024x128_0_0 arg6.view _ _ _

theorem scrAt_succ (k : Fin k0_t1_loop.trips) :
    scrAt c i arg1 harg1 arg2 harg2 arg3 harg3 arg4 harg4 arg5 harg5 arg6 harg6 v3 X1 (k.val + 1)
      = k0_pay3 v3 k (ldTbl arg1 k X1) (scrAt c i arg1 harg1 arg2 harg2 arg3 harg3 arg4 harg4 arg5 harg5 arg6 harg6 v3 X1 k.val) := by
  unfold scrAt
  rw [pb_k0_t1_succ, tripL1_eq, List.singleton_append, ldScr_eq]
  exact read_writes_cons_whole (S := S1024x128) zero2 inb_S1024x128_S1024x128_0_0 arg6.view _ _ _

/-- The gathered block the scatter loop reads is the scratch after all the gather loop's trips. -/
theorem gathered_eq (x0 : Vec F S40960x128 .bf16) (x1 : Vec F S1024 .i32) :
    gathered c i arg1 harg1 arg2 harg2 arg3 harg3 arg4 harg4 arg5 harg5 arg6 harg6 x0 x1
      = scrAt c i arg1 harg1 arg2 harg2 arg3 harg3 arg4 harg4 arg5 harg5 arg6 harg6 (ld1024 arg2 (harg2.unread x1)) (harg1.unread x0) k0_t1_loop.trips := by
  show ldScr arg6 _ = _
  unfold scrAt
  rw [ldScr_eq, View.writes_append]

end Gather

section Scatter

variable (c : Dev nD) (i : grid0.Coords) (arg1 : Memref sig .tc .vmem S40960x128 .bf16) (harg1 : arg1.IsWhole) (arg2 : Memref sig .tc .vmem S1024 .i32) (harg2 : arg2.IsWhole) (arg3 : Memref sig .tc .vmem S1024 .i32) (harg3 : arg3.IsWhole) (arg4 : Memref sig .tc .vmem S1024 .f32) (harg4 : arg4.IsWhole) (arg5 : Memref sig .tc .vmem S40960x128 .f32) (harg5 : arg5.IsWhole) (arg6 : Memref sig .tc .vmem S1024x128 .f32) (harg6 : arg6.IsWhole) (v4 : Vec F S1024 .i32) (v5 : Vec F S1024 .f32) (v12 : Vec F S1024x128 .f32)
  (G5 : BufTy.Contents (Elt F) arg5.view.ty)

/-- What the output holds after k trips of the scatter loop, from the contents G5. -/
def outAt (k : ℕ) : Vec F S40960x128 .f32 :=
  arg5.view.read (Elt F) (arg5.view.writes (Elt F) G5
    (pb_k0_t2 Variants.none c none i arg1 harg1 arg2 harg2 arg3 harg3 arg4 harg4 arg5 harg5 arg6 harg6 v4 v5 v12 G5 k))

theorem outAt_zero : outAt c i arg1 harg1 arg2 harg2 arg3 harg3 arg4 harg4 arg5 harg5 arg6 harg6 v4 v5 v12 G5 0 = arg5.view.read (Elt F) G5 := by
  unfold outAt
  rw [pb_k0_t2.eq_1, View.writes_nil]

/-- The rows trip k loads, as the trips before left them. -/
abbrev rowsAt (k : Fin k0_t2_loop.trips) : Vec F S2048x128 .f32 :=
  ldOut arg5 k (arg5.view.writes (Elt F) G5 (pb_k0_t2 Variants.none c none i arg1 harg1 arg2 harg2 arg3 harg3 arg4 harg4 arg5 harg5 arg6 harg6 v4 v5 v12 G5 k.val))

/-- Inside trip k's rows the output holds, after the trip, the scatter chunk's value of those rows. -/
theorem outAt_succ_mem (k : Fin k0_t2_loop.trips) (y : S40960x128.Idx) (x : S2048x128.Idx)
    (hx0 : (y 0).val = 2048 * k.val + (x 0).val) (hx1 : (y 1).val = (x 1).val) :
    outAt c i arg1 harg1 arg2 harg2 arg3 harg3 arg4 harg4 arg5 harg5 arg6 harg6 v4 v5 v12 G5 (k.val + 1) y
      = k0_pay4 v4 v5 v12 k (rowsAt c i arg1 harg1 arg2 harg2 arg3 harg3 arg4 harg4 arg5 harg5 arg6 harg6 v4 v5 v12 G5 k) x := by
  unfold outAt
  rw [pb_k0_t2_succ, tripL2_eq, List.singleton_append]
  exact View.read_writes_cons_rows_of_mem (Val := Elt F) arg5.view G5 (k0_off2_inb k) _ _ y x (k0_off2_eq k) hx0 hx1

/-- Outside them it holds what it held before the trip. -/
theorem outAt_succ_not_mem (k : Fin k0_t2_loop.trips) (y : S40960x128.Idx)
    (h : (y 0).val < 2048 * k.val ∨ 2048 * k.val + 2048 ≤ (y 0).val) :
    outAt c i arg1 harg1 arg2 harg2 arg3 harg3 arg4 harg4 arg5 harg5 arg6 harg6 v4 v5 v12 G5 (k.val + 1) y = outAt c i arg1 harg1 arg2 harg2 arg3 harg3 arg4 harg4 arg5 harg5 arg6 harg6 v4 v5 v12 G5 k.val y := by
  unfold outAt
  rw [pb_k0_t2_succ, tripL2_eq, List.singleton_append]
  exact View.read_writes_cons_rows_of_not_mem (Val := Elt F) arg5.view G5 (k0_off2_inb k) _ _ y (k0_off2_eq k) rfl h

/-- The rows trip k loads, at an index: the output before the trip at row 2048 k + n. -/
theorem rowsAt_apply (k : Fin k0_t2_loop.trips) (n : Fin 2048) (q : Fin 128) :
    rowsAt c i arg1 harg1 arg2 harg2 arg3 harg3 arg4 harg4 arg5 harg5 arg6 harg6 v4 v5 v12 G5 k (ix2 n q)
      = outAt c i arg1 harg1 arg2 harg2 arg3 harg3 arg4 harg4 arg5 harg5 arg6 harg6 v4 v5 v12 G5 k.val
          (ix2 (⟨2048 * k.val + n.val, by have h := k.isLt; have h2 : k0_t2_loop.trips = 20 := trips2_eq; omega⟩ : Fin 40960) q) := by
  unfold outAt
  show arg5.view.read (Elt F) _ _ = _
  congr 1
  funext a
  apply Fin.ext
  match a with
  | ⟨0, _⟩ =>
    show k0_off2 k 0 + 1 * n.val = 2048 * k.val + n.val
    rw [k0_off2_eq k]
    show 2048 * k.val + 1 * n.val = _
    omega
  | ⟨1, _⟩ =>
    show k0_off2 k 1 + 1 * q.val = q.val
    rw [k0_off2_eq k]
    show 0 + 1 * q.val = _
    omega

end Scatter

end Cert.KernelIdeal.Gen

end
-- ==== Proof.Spec.lean ====
/-
  The sparse product written as sums of one-hot entries, over the extended reals.

  A one-hot entry is 1 where two index words are equal and 0 elsewhere. Gathering row c of a table is the sum over the
  table's rows n of (c = n) times row n; the kernel takes that sum in 20 chunks of 2048 rows, each added to what the
  chunks before left, starting from 0. Scattering into row r is the sum over the edges e of (row word of e = r) times
  the edge's scaled gathered row. Over the blocks of 1024 edges the contributions to an entry are added one block after
  the other, the first to 0.
-/
import Idealize.ShloMosaic.PureOps.Ideal
import Idealize.ShloMosaic.Lib.ValueIdx

noncomputable section

namespace Spmm

open Idealize.ShloMosaic Idealize.ShloMosaic.ValueIdx

/-- A word that reads, signed, as an integer in [0, N) reads unsigned as the same number. -/
theorem toNat_lt_of_toInt {w : BitVec 32} {N : ℕ} (h0 : 0 ≤ w.toInt) (h1 : w.toInt < (N : ℤ)) : w.toNat < N := by
  have hw := w.isLt
  rw [BitVec.toInt_eq_toNat_cond] at h0 h1
  by_cases h : 2 * w.toNat < 2 ^ 32
  · rw [if_pos h] at h0 h1; omega
  · rw [if_neg h] at h0 h1; omega

/-- A one-hot entry: 1 where the two index words are equal, else 0. -/
def onehot (a b : BitVec 32) : EReal := if a = b then 1 else 0

/-- The padded table's rows 2048 k .. 2048 k + 2047, weighted by the one-hot of the column word c, summed: chunk k's
    share of the gathered row, at column q. Past the 20th chunk there is none. -/
def gathChunk (xp : (⟨2, ![40960, 128]⟩ : Shape).Idx → EReal) (c : BitVec 32) (q : Fin 128) (k : ℕ) : EReal :=
  if h : k < 20 then
    ∑ n : Fin 2048, onehot c (BitVec.ofNat 32 (2048 * k + n.val)) * xp (ix2 (⟨2048 * k + n.val, by omega⟩ : Fin 40960) q)
  else 0

/-- The gathered row after the first k chunks: each chunk's share added to what the chunks before left, from 0. -/
def gathAcc (xp : (⟨2, ![40960, 128]⟩ : Shape).Idx → EReal) (c : BitVec 32) (q : Fin 128) : ℕ → EReal
  | 0 => 0
  | k + 1 => gathAcc xp c q k + gathChunk xp c q k

/-- One block's contribution to the output entry (r, q): over the block's 1024 edges, the one-hot of the edge's row
    word against r, times the edge's weight times its gathered row at q. -/
def blockPart (g : Fin 1024 → Fin 128 → EReal) (er : Fin 1024 → BitVec 32) (av : Fin 1024 → EReal) (r : ℕ) (q : Fin 128) :
    EReal :=
  ∑ e : Fin 1024, onehot (er e) (BitVec.ofNat 32 r) * (av e * g e q)

/-- Contributions P 0, P 1, … added one after the other, the first to 0. -/
def runSum (P : ℕ → EReal) : ℕ → EReal
  | 0 => 0 + P 0
  | t + 1 => runSum P t + P (t + 1)

end Spmm

end
-- ==== Proof.Pay.lean ====
/-
  The kernel's four stored blocks, each read at one index, over the extended reals.

  The two loop bodies build the same one-hot mask: entry (e, n) compares edge e's index word with the node id
  2048 k + n of column n in chunk k, and is 1 where they agree and 0 elsewhere. The gather multiplies the mask by the
  chunk's 2048 table rows and adds the product to the running block; the scatter multiplies the transposed mask by the
  edges' scaled rows and adds the product to the rows loaded from the output. Read at an index, each product is a finite
  sum of one-hot entries times operand entries. The two fills before the loops are zero.
-/
import proofs.«402506_j36644660969839_1_alg».proof.Proof.Gen.KernelIdeal.Skeleton
import proofs.«402506_j36644660969839_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Spmm

open Idealize.ShloMosaic Idealize.ShloMosaic.ValueIdx Cert.KernelIdeal Cert.KernelIdeal.Gen

/-! ## Words -/

/-- The node id of column n of chunk k, as a 32-bit word: the chunk's first id 2048 k, computed from the loop counter,
    plus the column number. Sums and products of words are those of the numbers modulo 2^32. -/
theorem node_word (k n : ℕ) :
    Scalar.muli (Scalar.addi 0#32 (Scalar.muli (Scf.iv 0#32 1#32 k) 1#32)) 2048#32 + BitVec.ofNat 32 n
      = BitVec.ofNat 32 (2048 * k + n) := by
  apply BitVec.eq_of_toNat_eq
  simp [Scalar.muli, Scalar.addi, IntOp.muli, IntOp.addi, Scf.iv, BitVec.toNat_add, BitVec.toNat_mul]
  omega

/-- The comparison bit of two words, widened to a word and read as a signed integer, is the one-hot entry. -/
theorem mask_word (a b : BitVec 32) :
    ((((IntOp.cmpi .eq a b).setWidth 32).toInt : ℝ) : EReal) = onehot a b := by
  unfold onehot IntOp.cmpi
  by_cases h : a = b
  · subst h; simp
  · have hb : (a == b) = false := by simpa using h
    simp [h, hb]

/-! ## A column laid out and repeated -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The one-hot mask -/

/-- The mask of the words `c` against the node ids `w + n`: at edge e and column n it is the one-hot entry of c e
    against w + n. Its format changes are the identity on the extended reals. -/
theorem mask_apply (c : IVec S1024 32) (w : BitVec 32) (e : Fin 1024) (n : Fin 2048) :
    (truncf (F := Ideal) .bf16 (sitofp .f32 (extui 32 (cmpi .eq
        (broadcastTo S1024x2048 (shapeCast S1024x1 c shapeCasts_S1024_S1024x1) broadcasts_S1024x1_S1024x2048)
        (broadcastTo S1024x2048 (addi (broadcast S1x2048 w) (iota .tc S1x2048 32 [1] iota_S1x2048_d1_w32))
          broadcasts_S1x2048_S1024x2048)) natLt_1_32)) bitsLt_bf16_f32) (ix2 e n)
      = onehot (c (ix1 e)) (w + BitVec.ofNat 32 n.val) := by
  show ((((IntOp.cmpi .eq (broadcastTo S1024x2048 (shapeCast S1024x1 c shapeCasts_S1024_S1024x1) broadcasts_S1024x1_S1024x2048 (ix2 e n))
      (broadcastTo S1024x2048 (addi (broadcast S1x2048 w) (iota .tc S1x2048 32 [1] iota_S1x2048_d1_w32))
          broadcasts_S1x2048_S1024x2048 (ix2 e n))).setWidth 32).toInt : ℝ) : EReal) = _
  rw [broadcastTo_a1_ab_apply, shapeCast_a_a1_apply, broadcastTo_1b_ab_apply]
  have hrow : addi (broadcast S1x2048 w) (iota .tc S1x2048 32 [1] iota_S1x2048_d1_w32) (ix2 (0 : Fin 1) n)
      = w + BitVec.ofNat 32 n.val := by
    show w + iota .tc S1x2048 32 [1] iota_S1x2048_d1_w32 (ix2 (0 : Fin 1) n) = _
    rw [iota_single_apply]
  rw [hrow]
  exact mask_word _ _

/-! ## The two products read at an index

Each operand index of a product is, axis by axis, a coordinate of the result index on a free axis and the contraction's
one coordinate on the contracted axis. -/

/- The gather's product contracts axis 1 of the mask with axis 0 of the table's chunk. -/
theorem gath_lhs_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide),
    dif_pos (show (0 : Fin S1024x2048.rank) ∈ dot_S1024x2048_S2048x128_S1024x128_1_0_0_1_n_n.lhsNonContracting by decide)]
  rfl
theorem gath_lhs_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem gath_rhs_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem gath_rhs_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide),
    dif_pos (show (1 : Fin S2048x128.rank) ∈ dot_S1024x2048_S2048x128_S1024x128_1_0_0_1_n_n.rhsNonContracting by decide)]
  rfl

/-- The mask times a chunk of the table, added to zero: at (e, q) the sum over the chunk's rows n of the mask at (e, n)
    times the row's entry at q. -/
theorem gath_matmul_apply (A : FVec Ideal S1024x2048 .bf16) (B : FVec Ideal S2048x128 .bf16) (e : Fin 1024) (q : Fin 128) :
    matmul dot_S1024x2048_S2048x128_S1024x128_1_0_0_1_n_n none A B (constant S1024x128 .f32 0x00000000#32) (ix2 e q)
      = ∑ n : Fin 2048, A (ix2 e n) * B (ix2 n q) := by
  simp only [matmul]
  rw [Ideal.matmul_constant_zero_apply, ← Equiv.sum_comp (contrEquiv1 dot_S1024x2048_S2048x128_S1024x128_1_0_0_1_n_n 2048 rfl rfl).symm]
  refine Finset.sum_congr rfl fun n _ => ?_
  have hk := contrEquiv1_symm_val dot_S1024x2048_S2048x128_S1024x128_1_0_0_1_n_n 2048 rfl rfl n
  have el : dot_S1024x2048_S2048x128_S1024x128_1_0_0_1_n_n.lhsIdx (ix2 e q) ((contrEquiv1 dot_S1024x2048_S2048x128_S1024x128_1_0_0_1_n_n 2048 rfl rfl).symm n) = ix2 e n :=
    funext fun a => Fin.ext (by
      match a with
      | ⟨0, _⟩ => exact gath_lhs_0 _ _
      | ⟨1, _⟩ => exact (gath_lhs_1 _ _).trans hk)
  have er : dot_S1024x2048_S2048x128_S1024x128_1_0_0_1_n_n.rhsIdx (ix2 e q) ((contrEquiv1 dot_S1024x2048_S2048x128_S1024x128_1_0_0_1_n_n 2048 rfl rfl).symm n) = ix2 n q :=
    funext fun a => Fin.ext (by
      match a with
      | ⟨0, _⟩ => exact (gath_rhs_0 _ _).trans hk
      | ⟨1, _⟩ => exact gath_rhs_1 _ _)
  rw [el, er]

/- The scatter's product contracts the edge axis 0 of the mask with the edge axis 0 of the scaled rows. -/
theorem scat_lhs_0 (i : S2048x128.Idx) (q : dot_S1024x2048_S1024x128_S2048x128_0_0_1_1_n_n.contr.Idx) :
    (dot_S1024x2048_S1024x128_S2048x128_0_0_1_1_n_n.lhsIdx i q 0).val = (q ⟨0, by decide⟩).val :=
  dot_S1024x2048_S1024x128_S2048x128_0_0_1_1_n_n.lhsIdx_val_of_single rfl i q
theorem scat_lhs_1 (i : S2048x128.Idx) (q : dot_S1024x2048_S1024x128_S2048x128_0_0_1_1_n_n.contr.Idx) :
    (dot_S1024x2048_S1024x128_S2048x128_0_0_1_1_n_n.lhsIdx i q 1).val = (i 0).val := by
  unfold DotDims.lhsIdx
  rw [dif_neg (show ¬(1 : Fin S1024x2048.rank) ∈ dot_S1024x2048_S1024x128_S2048x128_0_0_1_1_n_n.lhsBatch by decide),
    dif_pos (show (1 : Fin S1024x2048.rank) ∈ dot_S1024x2048_S1024x128_S2048x128_0_0_1_1_n_n.lhsNonContracting by decide)]
  rfl
theorem scat_rhs_0 (i : S2048x128.Idx) (q : dot_S1024x2048_S1024x128_S2048x128_0_0_1_1_n_n.contr.Idx) :
    (dot_S1024x2048_S1024x128_S2048x128_0_0_1_1_n_n.rhsIdx i q 0).val = (q ⟨0, by decide⟩).val :=
  dot_S1024x2048_S1024x128_S2048x128_0_0_1_1_n_n.rhsIdx_val_of_single rfl i q
theorem scat_rhs_1 (i : S2048x128.Idx) (q : dot_S1024x2048_S1024x128_S2048x128_0_0_1_1_n_n.contr.Idx) :
    (dot_S1024x2048_S1024x128_S2048x128_0_0_1_1_n_n.rhsIdx i q 1).val = (i 1).val := by
  unfold DotDims.rhsIdx
  rw [dif_neg (show ¬(1 : Fin S1024x128.rank) ∈ dot_S1024x2048_S1024x128_S2048x128_0_0_1_1_n_n.rhsBatch by decide),
    dif_pos (show (1 : Fin S1024x128.rank) ∈ dot_S1024x2048_S1024x128_S2048x128_0_0_1_1_n_n.rhsNonContracting by decide)]
  rfl

/-- The mask, transposed, times the scaled rows, added to zero: at (n, q) the sum over the edges e of the mask at (e, n)
    times edge e's scaled row at q. -/
theorem scat_matmul_apply (A : FVec Ideal S1024x2048 .bf16) (B : FVec Ideal S1024x128 .bf16) (n : Fin 2048) (q : Fin 128) :
    matmul dot_S1024x2048_S1024x128_S2048x128_0_0_1_1_n_n none A B (constant S2048x128 .f32 0x00000000#32) (ix2 n q)
      = ∑ e : Fin 1024, A (ix2 e n) * B (ix2 e q) := by
  simp only [matmul]
  rw [Ideal.matmul_constant_zero_apply, ← Equiv.sum_comp (contrEquiv1 dot_S1024x2048_S1024x128_S2048x128_0_0_1_1_n_n 1024 rfl rfl).symm]
  refine Finset.sum_congr rfl fun e _ => ?_
  have hk := contrEquiv1_symm_val dot_S1024x2048_S1024x128_S2048x128_0_0_1_1_n_n 1024 rfl rfl e
  have el : dot_S1024x2048_S1024x128_S2048x128_0_0_1_1_n_n.lhsIdx (ix2 n q) ((contrEquiv1 dot_S1024x2048_S1024x128_S2048x128_0_0_1_1_n_n 1024 rfl rfl).symm e) = ix2 e n :=
    funext fun a => Fin.ext (by
      match a with
      | ⟨0, _⟩ => exact (scat_lhs_0 _ _).trans hk
      | ⟨1, _⟩ => exact scat_lhs_1 _ _)
  have er : dot_S1024x2048_S1024x128_S2048x128_0_0_1_1_n_n.rhsIdx (ix2 n q) ((contrEquiv1 dot_S1024x2048_S1024x128_S2048x128_0_0_1_1_n_n 1024 rfl rfl).symm e) = ix2 e q :=
    funext fun a => Fin.ext (by
      match a with
      | ⟨0, _⟩ => exact (scat_rhs_0 _ _).trans hk
      | ⟨1, _⟩ => exact scat_rhs_1 _ _)
  rw [el, er]

/-! ## The stored blocks at an index -/

/-- One chunk of the gather: the running block plus, over the chunk's 2048 table rows, the one-hot of the edge's column
    word against the row's node id times the row. -/
theorem pay3_apply (v3 : Vec Ideal S1024 .i32) (k : Fin k0_t1_loop.trips) (v32 : Vec Ideal S2048x128 .bf16)
    (v34 : Vec Ideal S1024x128 .f32) (e : Fin 1024) (q : Fin 128) :
    k0_pay3 (F := Ideal) v3 k v32 v34 (ix2 e q)
      = v34 (ix2 e q) + ∑ n : Fin 2048, onehot (v3 (ix1 e)) (BitVec.ofNat 32 (2048 * k.val + n.val)) * v32 (ix2 n q) := by
  unfold k0_pay3
  simp only [shapeCast_self]
  rw [addf_apply, gath_matmul_apply]
  refine congrArg (v34 (ix2 e q) + ·) (Finset.sum_congr rfl fun n _ => ?_)
  rw [mask_apply, node_word]

/-- One chunk of the scatter: the loaded rows plus, over the block's 1024 edges, the one-hot of the edge's row word
    against the row's node id times the edge's weight times its gathered row. -/
theorem pay4_apply (v4 : Vec Ideal S1024 .i32) (v5 : Vec Ideal S1024 .f32) (v12 : Vec Ideal S1024x128 .f32)
    (k : Fin k0_t2_loop.trips) (v33 : Vec Ideal S2048x128 .f32) (n : Fin 2048) (q : Fin 128) :
    k0_pay4 (F := Ideal) v4 v5 v12 k v33 (ix2 n q)
      = v33 (ix2 n q) + ∑ e : Fin 1024, onehot (v4 (ix1 e)) (BitVec.ofNat 32 (2048 * k.val + n.val)) * (v5 (ix1 e) * v12 (ix2 e q)) := by
  unfold k0_pay4
  simp only [shapeCast_self]
  rw [addf_apply, scat_matmul_apply]
  refine congrArg (v33 (ix2 n q) + ·) (Finset.sum_congr rfl fun e _ => ?_)
  rw [mask_apply, node_word, truncf_apply, mulf_apply, broadcastTo_a1_ab_apply, shapeCast_a_a1_apply]

/-- The output's first fill is zero everywhere. -/
theorem pay1_apply (y : S40960x128.Idx) : k0_pay1 (F := Ideal) y = 0 := by
  unfold k0_pay1
  show Ideal.ofBits .f32 0x00000000#32 = 0
  exact Ideal.ofBits_zero_f32

/-- The gathered block's first fill is zero everywhere. -/
theorem pay2_apply (y : S1024x128.Idx) : k0_pay2 (F := Ideal) y = 0 := by
  unfold k0_pay2
  simp only [shapeCast_self]
  show Ideal.ofBits .f32 0x00000000#32 = 0
  exact Ideal.ofBits_zero_f32

end Spmm

end
-- ==== Proof.Point.lean ====
/-
  One grid point of the kernel at the ideal instance, entry by entry.

  The scratch after k gather trips holds, at (e, q), the one-hot gather of the table at edge e's column word over the
  first k chunks of rows. The output after k scatter trips holds, in the rows below 2048 k, what it held plus the block's
  contribution, and above them what it held. So a grid point leaves, at every (r, q), what the output held before — 0 at
  the first point — plus the block's contribution: the one-hot of each edge's row word against r times the edge's weight
  times its gathered row.
-/
import proofs.«402506_j36644660969839_1_alg».proof.Proof.Loops
import proofs.«402506_j36644660969839_1_alg».proof.Proof.Pay
import proofs.«402506_j36644660969839_1_alg».proof.Proof.Spec

set_option maxRecDepth 16384

noncomputable section

namespace Cert.KernelIdeal.Gen

open Idealize.ShloMosaic Idealize.ShloMosaic.TcCoe Idealize.ShloMosaic.ValueIdx
open Idealize.SL.Sem Spmm

/-- The table's rows trip k loads, at an index: the table at row 2048 k + n. -/
theorem ldTbl_apply {F : FTy → Type} [FloatOps F] (arg1 : Memref sig .tc .vmem S40960x128 .bf16)
    (k : Fin k0_t1_loop.trips) (f : BufTy.Contents (Elt F) arg1.view.ty) (n : Fin 2048) (q : Fin 128) :
    ldTbl arg1 k f (ix2 n q)
      = arg1.view.read (Elt F) f
          (ix2 (⟨2048 * k.val + n.val, by have h := k.isLt; have h2 : k0_t1_loop.trips = 20 := trips1_eq; omega⟩ : Fin 40960) q) := by
  show arg1.view.read (Elt F) _ _ = _
  congr 1
  funext a
  apply Fin.ext
  match a with
  | ⟨0, _⟩ =>
    show k0_off1 k 0 + 1 * n.val = 2048 * k.val + n.val
    rw [k0_off1_eq k]
    show 2048 * k.val + 1 * n.val = _
    omega
  | ⟨1, _⟩ =>
    show k0_off1 k 1 + 1 * q.val = q.val
    rw [k0_off1_eq k]
    show 0 + 1 * q.val = _
    omega

section

variable (c : Dev nD) (i : grid0.Coords) (arg1 : Memref sig .tc .vmem S40960x128 .bf16) (harg1 : arg1.IsWhole) (arg2 : Memref sig .tc .vmem S1024 .i32) (harg2 : arg2.IsWhole) (arg3 : Memref sig .tc .vmem S1024 .i32) (harg3 : arg3.IsWhole) (arg4 : Memref sig .tc .vmem S1024 .f32) (harg4 : arg4.IsWhole) (arg5 : Memref sig .tc .vmem S40960x128 .f32) (harg5 : arg5.IsWhole) (arg6 : Memref sig .tc .vmem S1024x128 .f32) (harg6 : arg6.IsWhole)

/-- The scratch after k gather trips is the gather accumulated over the first k chunks. -/
theorem scrAt_apply (v3 : Vec Ideal S1024 .i32) (X1 : BufTy.Contents (Elt Ideal) arg1.view.ty) (k : ℕ) (hk : k ≤ 20)
    (e : Fin 1024) (q : Fin 128) :
    scrAt (F := Ideal) c i arg1 harg1 arg2 harg2 arg3 harg3 arg4 harg4 arg5 harg5 arg6 harg6 v3 X1 k (ix2 e q)
      = gathAcc (arg1.view.read (Elt Ideal) X1) (v3 (ix1 e)) q k := by
  induction k with
  | zero =>
    rw [scrAt_zero, pay2_apply]
    rfl
  | succ k ih =>
    have hk' : k < k0_t1_loop.trips := by rw [trips1_eq]; omega
    have hs := scrAt_succ (F := Ideal) c i arg1 harg1 arg2 harg2 arg3 harg3 arg4 harg4 arg5 harg5 arg6 harg6 v3 X1 ⟨k, hk'⟩
    rw [show k + 1 = (⟨k, hk'⟩ : Fin k0_t1_loop.trips).val + 1 from rfl, hs, pay3_apply]
    show scrAt c i arg1 harg1 arg2 harg2 arg3 harg3 arg4 harg4 arg5 harg5 arg6 harg6 v3 X1 k (ix2 e q) + _ = gathAcc _ _ q k + gathChunk _ _ q k
    rw [ih (by omega)]
    congr 1
    unfold gathChunk
    rw [dif_pos (by omega : k < 20)]
    refine Finset.sum_congr rfl fun n _ => ?_
    rw [ldTbl_apply]

/-- The output after k scatter trips: rows below 2048 k updated, the others as they were. -/
theorem outAt_apply (v4 : Vec Ideal S1024 .i32) (v5 : Vec Ideal S1024 .f32) (v12 : Vec Ideal S1024x128 .f32)
    (G5 : BufTy.Contents (Elt Ideal) arg5.view.ty) (k : ℕ) (hk : k ≤ 20) (r : Fin 40960) (q : Fin 128) :
    outAt (F := Ideal) c i arg1 harg1 arg2 harg2 arg3 harg3 arg4 harg4 arg5 harg5 arg6 harg6 v4 v5 v12 G5 k (ix2 r q)
      = if r.val < 2048 * k then
          arg5.view.read (Elt Ideal) G5 (ix2 r q)
            + blockPart (fun e q => v12 (ix2 e q)) (fun e => v4 (ix1 e)) (fun e => v5 (ix1 e)) r.val q
        else arg5.view.read (Elt Ideal) G5 (ix2 r q) := by
  induction k with
  | zero =>
    rw [outAt_zero, if_neg (by omega)]
  | succ k ih =>
    have hk' : k < k0_t2_loop.trips := by rw [trips2_eq]; omega
    have ih' := ih (by omega)
    rw [show k + 1 = (⟨k, hk'⟩ : Fin k0_t2_loop.trips).val + 1 from rfl]
    by_cases h1 : r.val < 2048 * k
    · rw [outAt_succ_not_mem (F := Ideal) c i arg1 harg1 arg2 harg2 arg3 harg3 arg4 harg4 arg5 harg5 arg6 harg6 v4 v5 v12 G5 ⟨k, hk'⟩ (ix2 r q) (Or.inl h1)]
      show outAt c i arg1 harg1 arg2 harg2 arg3 harg3 arg4 harg4 arg5 harg5 arg6 harg6 v4 v5 v12 G5 k (ix2 r q) = _
      rw [ih', if_pos h1, if_pos (by show r.val < 2048 * (k + 1); omega)]
    · by_cases h2 : r.val < 2048 * k + 2048
      · have hn : r.val - 2048 * k < 2048 := by omega
        rw [outAt_succ_mem (F := Ideal) c i arg1 harg1 arg2 harg2 arg3 harg3 arg4 harg4 arg5 harg5 arg6 harg6 v4 v5 v12 G5 ⟨k, hk'⟩ (ix2 r q) (ix2 (⟨r.val - 2048 * k, hn⟩ : Fin 2048) q)
          (by show r.val = 2048 * k + (r.val - 2048 * k); omega) rfl]
        rw [pay4_apply, rowsAt_apply]
        have hr : (⟨2048 * k + (r.val - 2048 * k), by omega⟩ : Fin 40960) = r := Fin.ext (by show 2048 * k + (r.val - 2048 * k) = r.val; omega)
        show outAt c i arg1 harg1 arg2 harg2 arg3 harg3 arg4 harg4 arg5 harg5 arg6 harg6 v4 v5 v12 G5 k (ix2 (⟨2048 * k + (r.val - 2048 * k), _⟩ : Fin 40960) q) + _ = _
        rw [hr, ih', if_neg h1, if_pos (by show r.val < 2048 * (k + 1); omega)]
        congr 1
        unfold blockPart
        refine Finset.sum_congr rfl fun e _ => ?_
        show onehot _ (BitVec.ofNat 32 (2048 * k + (r.val - 2048 * k))) * _ = _
        rw [show 2048 * k + (r.val - 2048 * k) = r.val by omega]
      · rw [outAt_succ_not_mem (F := Ideal) c i arg1 harg1 arg2 harg2 arg3 harg3 arg4 harg4 arg5 harg5 arg6 harg6 v4 v5 v12 G5 ⟨k, hk'⟩ (ix2 r q) (Or.inr (by show 2048 * k + 2048 ≤ r.val; omega))]
        show outAt c i arg1 harg1 arg2 harg2 arg3 harg3 arg4 harg4 arg5 harg5 arg6 harg6 v4 v5 v12 G5 k (ix2 r q) = _
        rw [ih', if_neg h1, if_neg (by show ¬ r.val < 2048 * (k + 1); omega)]

theorem tripCount2 : Scf.trips (0#32) (Scalar.addi 0#32 20#32) 1#32 = 20 := by decide

/-- The gathered block, entry by entry: the one-hot gather of the whole table at the edge's column word. -/
theorem gathered_apply (x0 : Vec Ideal S40960x128 .bf16) (x1 : Vec Ideal S1024 .i32) (e : Fin 1024) (q : Fin 128) :
    gathered (F := Ideal) c i arg1 harg1 arg2 harg2 arg3 harg3 arg4 harg4 arg5 harg5 arg6 harg6 x0 x1 (ix2 e q) = gathAcc x0 (x1 (ix1 e)) q 20 := by
  rw [gathered_eq, show k0_t1_loop.trips = 20 from trips1_eq, scrAt_apply c i arg1 harg1 arg2 harg2 arg3 harg3 arg4 harg4 arg5 harg5 arg6 harg6 _ _ 20 le_rfl e q,
    ld1024_unread, harg1.read_unread]

/-- A later grid point leaves, at (r, q), what the output held plus the block's contribution. -/
theorem out0_B_apply (hc0 : ¬cond0_0 i) (x0 : Vec Ideal S40960x128 .bf16) (x1 x2 : Vec Ideal S1024 .i32)
    (x3 : Vec Ideal S1024 .f32) (xo4 : Vec Ideal S40960x128 .f32) (r : Fin 40960) (q : Fin 128) :
    out0_B_4 (F := Ideal) c i arg1 harg1 arg2 harg2 arg3 harg3 arg4 harg4 arg5 harg5 arg6 harg6 hc0 x0 x1 x2 x3 xo4 (ix2 r q)
      = xo4 (ix2 r q)
        + blockPart (fun e q => gathAcc x0 (x1 (ix1 e)) q 20) (fun e => x2 (ix1 e)) (fun e => x3 (ix1 e)) r.val q := by
  unfold out0_B_4
  rw [View.read_writes_of_cover VO0_4 VO0_4.junk arg5.view (harg5.unread xo4) _
    (cover0_B_4 c i arg1 harg1 arg2 harg2 arg3 harg3 arg4 harg4 arg5 harg5 arg6 harg6 hc0 x0 x1 x2 x3 xo4)]
  rw [runB_pieces, tripCount2]
  show outAt c i arg1 harg1 arg2 harg2 arg3 harg3 arg4 harg4 arg5 harg5 arg6 harg6 _ _ _ (harg5.unread xo4) 20 (ix2 r q) = _
  rw [outAt_apply c i arg1 harg1 arg2 harg2 arg3 harg3 arg4 harg4 arg5 harg5 arg6 harg6 _ _ _ _ 20 le_rfl r q, if_pos (by have := r.isLt; omega), harg5.read_unread,
    ld1024_unread, ld1024_unread]
  congr 1
  unfold blockPart
  refine Finset.sum_congr rfl fun e _ => ?_
  exact congrArg (fun z => onehot (x2 (ix1 e)) (BitVec.ofNat 32 r.val) * (x3 (ix1 e) * z))
    (gathered_apply c i arg1 harg1 arg2 harg2 arg3 harg3 arg4 harg4 arg5 harg5 arg6 harg6 x0 x1 e q)

/-- The first grid point leaves, at (r, q), 0 plus the block's contribution. -/
theorem out0_A_apply (hc0 : cond0_0 i) (x0 : Vec Ideal S40960x128 .bf16) (x1 x2 : Vec Ideal S1024 .i32)
    (x3 : Vec Ideal S1024 .f32) (r : Fin 40960) (q : Fin 128) :
    out0_A_4 (F := Ideal) c i arg1 harg1 arg2 harg2 arg3 harg3 arg4 harg4 arg5 harg5 arg6 harg6 hc0 x0 x1 x2 x3 (ix2 r q)
      = 0 + blockPart (fun e q => gathAcc x0 (x1 (ix1 e)) q 20) (fun e => x2 (ix1 e)) (fun e => x3 (ix1 e)) r.val q := by
  unfold out0_A_4
  rw [View.read_writes_of_cover VO0_4 VO0_4.junk arg5.view arg5.view.junk _
    (cover0_A_4 c i arg1 harg1 arg2 harg2 arg3 harg3 arg4 harg4 arg5 harg5 arg6 harg6 hc0 x0 x1 x2 x3)]
  rw [runA_pieces, tripCount2, View.writes_append]
  show outAt c i arg1 harg1 arg2 harg2 arg3 harg3 arg4 harg4 arg5 harg5 arg6 harg6 _ _ _ (arg5.view.writes (Elt Ideal) arg5.view.junk outFill) 20 (ix2 r q) = _
  rw [outAt_apply c i arg1 harg1 arg2 harg2 arg3 harg3 arg4 harg4 arg5 harg5 arg6 harg6 _ _ _ _ 20 le_rfl r q, if_pos (by have := r.isLt; omega),
    read_writes_cons_whole (S := S40960x128) (Val := Elt Ideal) zero2 inb_S40960x128_S40960x128_0_0 arg5.view _ _ _,
    pay1_apply, ld1024_unread, ld1024_unread]
  congr 1
  unfold blockPart
  refine Finset.sum_congr rfl fun e _ => ?_
  exact congrArg (fun z => onehot (x2 (ix1 e)) (BitVec.ofNat 32 r.val) * (x3 (ix1 e) * z))
    (gathered_apply c i arg1 harg1 arg2 harg2 arg3 harg3 arg4 harg4 arg5 harg5 arg6 harg6 x0 x1 e q)

end

end Cert.KernelIdeal.Gen

end
-- ==== Proof.Entry.lean ====
/-
  What the kernel region finds in its input windows, over the extended reals.

  The table window holds, at every grid point, the whole padded table: the argument's 40000 rows and, after them, 960
  rows of 0 (the change of float format after the padding is the identity here). The three edge windows hold, at grid
  point t, entries 1024 t .. 1024 t + 1023 of the column words, the row words and the weights: entry e of the block is
  entry 1024 t + e of the array.
-/
import proofs.«402506_j36644660969839_1_alg».proof.Proof.Gen.KernelIdeal.Frame
import Idealize.ShloMosaic.Lib.ValueIdx
import Idealize.ShloMosaic.Lib.Pipeline.Value
import Idealize.ShloMosaic.Lib.StableHlo.Run
import Idealize.ShloMosaic.Lib.KernelVsHost
import Idealize.ShloMosaic.PureOps.Ideal

set_option maxRecDepth 16384

noncomputable section

namespace Spmm

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-- The table's block at a grid point. -/
abbrev tblBlk (c : Dev nD) (t : Fin cfg0.N) : Vec Ideal S40960x128 .bf16 := iblk m c 0 t
/-- The column words' block at a grid point. -/
abbrev colBlk (c : Dev nD) (t : Fin cfg0.N) : Vec Ideal S1024 .i32 := iblk m c 1 t
/-- The row words' block at a grid point. -/
abbrev rowBlk (c : Dev nD) (t : Fin cfg0.N) : Vec Ideal S1024 .i32 := iblk m c 2 t
/-- The weights' block at a grid point. -/
abbrev wtBlk (c : Dev nD) (t : Fin cfg0.N) : Vec Ideal S1024 .f32 := iblk m c 3 t

/-- The column window's block index at a point is the point's own number: decided over the grid. -/
theorem colIdx : ∀ t : Fin cfg0.N, win0_1.index t (0 : Fin 1) = t.val :=
  (by decide +kernel : ∀ t : Fin grid0.N, _)

/-- The column window at point t, entry e: the column array's entry 1024 t + e. -/
theorem colBlk_apply (c : Dev nD) (t : Fin cfg0.N) (e : Fin 1024) :
    (colBlk m c t : S1024.Idx → BitVec 32) (ix1 e)
      = (m ((c : Thread nD τ).loc main_arg2) : S640000.Idx → BitVec 32)
          (ix1 (⟨1024 * t.val + e.val, by have := t.isLt; have : cfg0.N = 625 := N_0; omega⟩ : Fin 640000)) := by
  show V m c main_arg2 (((cfg0.win 1).blk t).view.emb (ix1 e)) = _
  rw [V_main_arg2]
  refine congrArg _ (funext fun a => Fin.ext ?_)
  match a with
  | ⟨0, _⟩ =>
    show win0_1.index t (0 : Fin 1) * 1024 + 1 * e.val = 1024 * t.val + e.val
    rw [colIdx t]; omega

/-- The row window's block index at a point is the point's own number. -/
theorem rowIdx : ∀ t : Fin cfg0.N, win0_2.index t (0 : Fin 1) = t.val :=
  (by decide +kernel : ∀ t : Fin grid0.N, _)

/-- The weight window's block index at a point is the point's own number. -/
theorem wtIdx : ∀ t : Fin cfg0.N, win0_3.index t (0 : Fin 1) = t.val :=
  (by decide +kernel : ∀ t : Fin grid0.N, _)

/-- The row window at point t, entry e: the row array's entry 1024 t + e. -/
theorem rowBlk_apply (c : Dev nD) (t : Fin cfg0.N) (e : Fin 1024) :
    (rowBlk m c t : S1024.Idx → BitVec 32) (ix1 e)
      = (m ((c : Thread nD τ).loc main_arg1) : S640000.Idx → BitVec 32)
          (ix1 (⟨1024 * t.val + e.val, by have := t.isLt; have : cfg0.N = 625 := N_0; omega⟩ : Fin 640000)) := by
  show V m c main_arg1 (((cfg0.win 2).blk t).view.emb (ix1 e)) = _
  rw [V_main_arg1]
  refine congrArg _ (funext fun a => Fin.ext ?_)
  match a with
  | ⟨0, _⟩ =>
    show win0_2.index t (0 : Fin 1) * 1024 + 1 * e.val = 1024 * t.val + e.val
    rw [rowIdx t]; omega

/-- The weight window at point t, entry e: the weight array's entry 1024 t + e. -/
theorem wtBlk_apply (c : Dev nD) (t : Fin cfg0.N) (e : Fin 1024) :
    (wtBlk m c t : S1024.Idx → EReal) (ix1 e)
      = (m ((c : Thread nD τ).loc main_arg3) : S640000.Idx → EReal)
          (ix1 (⟨1024 * t.val + e.val, by have := t.isLt; have : cfg0.N = 625 := N_0; omega⟩ : Fin 640000)) := by
  show V m c main_arg3 (((cfg0.win 3).blk t).view.emb (ix1 e)) = _
  rw [V_main_arg3]
  refine congrArg _ (funext fun a => Fin.ext ?_)
  match a with
  | ⟨0, _⟩ =>
    show win0_3.index t (0 : Fin 1) * 1024 + 1 * e.val = 1024 * t.val + e.val
    rw [wtIdx t]; omega

/-- The table window's block index is (0, 0) at every point: decided over the grid. -/
theorem tblIdx : ∀ t : Fin cfg0.N, win0_0.index t (0 : Fin 2) = 0 ∧ win0_0.index t (1 : Fin 2) = 0 :=
  (by decide +kernel : ∀ t : Fin grid0.N, _)

/-- Window 0's block at every point is the whole padded table. -/
theorem tblBlk_eq (c : Dev nD) (t : Fin cfg0.N) :
    (tblBlk m c t : S40960x128.Idx → EReal) = V m c main_v1 := by
  funext j
  show V m c main_v1 (((cfg0.win 0).blk t).view.emb j) = V m c main_v1 j
  refine congrArg _ (funext fun a => Fin.ext ?_)
  obtain ⟨h0, h1⟩ := tblIdx t
  match a with
  | ⟨0, _⟩ =>
    show win0_0.index t (0 : Fin 2) * 40960 + 1 * (j 0).val = (j 0).val
    rw [h0]; omega
  | ⟨1, _⟩ =>
    show win0_0.index t (1 : Fin 2) * 128 + 1 * (j 1).val = (j 1).val
    rw [h1]; omega

/-- The padded table: rows below 40000 are the argument's, the 960 rows after them are 0. -/
theorem xpad_apply (c : Dev nD) (n : Fin 40960) (q : Fin 128) :
    (V m c main_v1 : S40960x128.Idx → EReal) (ix2 n q)
      = if h : n.val < 40000 then
          (m ((c : Thread nD τ).loc main_arg0) : S40000x128.Idx → EReal) (ix2 (⟨n.val, h⟩ : Fin 40000) q)
        else (0 : EReal) := by
  have e : @Eq (S40960x128.Idx → EReal) (V m c main_v1)
      (truncf (F := Ideal) .bf16 (pad S40960x128 ![0, 0] ![960, 0] ![0, 0]
          (m ((c : Thread nD τ).loc main_arg0) : S40000x128.Idx → EReal)
          (sitofp (F := Ideal) .f32 (constantI S_ 32 0#32) : S_.Idx → EReal)
          Facts₀.pads_S40000x128_S40960x128_09600_000 Facts₀.h_S_ : FVec Ideal S40960x128 .f32) Facts₀.bitsLt_bf16_f32) := by
    dsimp only [Gen.V, Gen.V0]
    simp only [Gen.hostOps0, Gen.hostOps0_1, Gen.hostOps0_2, List.flatten_cons, List.flatten_nil, List.append_nil,
      List.cons_append, List.nil_append]
    after_results
    rfl
  rw [e, truncf_apply]
  by_cases h : n.val < 40000
  · rw [dif_pos h]
    exact pad_apply_of_inside _ _ _ _ _ _ _ (ix2 n q) (ix2 (⟨n.val, h⟩ : Fin 40000) q) (fun a => by
      match a with
      | ⟨0, _⟩ => show n.val = 0 + n.val * (0 + 1); omega
      | ⟨1, _⟩ => show q.val = 0 + q.val * (0 + 1); omega)
  · rw [dif_neg h]
    refine (pad_apply_of_not_inside _ _ _ _ _ _ _ (ix2 n q) (0 : Fin 2) ?_).trans ?_
    · show ¬(0 ≤ n.val ∧ (n.val - 0) % 1 = 0 ∧ (n.val - 0) / 1 < 40000)
      omega
    · show (((0#32 : BitVec 32).toInt : ℝ) : EReal) = 0
      have hz : (0#32 : BitVec 32).toInt = 0 := by decide
      rw [hz, Int.cast_zero, EReal.coe_zero]

end Spmm

end
-- ==== Proof.Points.lean ====
/-
  The output's staging buffer after each grid point, entry by entry: the blocks' contributions to the entry, added one
  block after the other, the first to 0. Block t's contribution is written over the whole edge arrays: edge 1024 t + e
  of the block has row word rows[1024 t + e], weight weights[1024 t + e] and the one-hot gather of the padded table at
  cols[1024 t + e].
-/
import proofs.«402506_j36644660969839_1_alg».proof.Proof.Point
import proofs.«402506_j36644660969839_1_alg».proof.Proof.Entry

set_option maxRecDepth 16384

noncomputable section

namespace Spmm

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The edges' row words. -/
abbrev rowW (c : Dev nD) : Fin 640000 → BitVec 32 :=
  fun E => (m ((c : Thread nD τ).loc main_arg1) : S640000.Idx → BitVec 32) (ix1 E)

/-- The edges' column words. -/
abbrev colW (c : Dev nD) : Fin 640000 → BitVec 32 :=
  fun E => (m ((c : Thread nD τ).loc main_arg2) : S640000.Idx → BitVec 32) (ix1 E)

/-- The edges' weights. -/
abbrev wtW (c : Dev nD) : Fin 640000 → EReal :=
  fun E => (m ((c : Thread nD τ).loc main_arg3) : S640000.Idx → EReal) (ix1 E)

/-- The padded table the region finds. -/
abbrev padTbl (c : Dev nD) : (⟨2, ![40960, 128]⟩ : Shape).Idx → EReal := V m c main_v1

/-- An edge's term at column q: its weight times the one-hot gather of the padded table at its column word. -/
abbrev edgeTerm (c : Dev nD) (q : Fin 128) : Fin 640000 → EReal :=
  fun E => wtW m c E * gathAcc (padTbl m c) (colW m c E) q 20

/-- Block t's contribution to the entry (r, q). -/
abbrev blockTerm (c : Dev nD) (r : ℕ) (q : Fin 128) : ℕ → EReal :=
  fun t => if ht : t < 625 then
      ∑ e : Fin 1024, onehot (rowW m c ⟨1024 * t + e.val, by omega⟩) (BitVec.ofNat 32 r) * edgeTerm m c q ⟨1024 * t + e.val, by omega⟩
    else 0

/-- The contribution of grid point t's block, read off the point's input blocks, is block t's over the edge arrays. -/
theorem blockPart_point (c : Dev nD) (t : Fin cfg0.N) (r : ℕ) (q : Fin 128) :
    blockPart (fun e q => gathAcc (tblBlk m c t) (colBlk m c t (ix1 e)) q 20) (fun e => rowBlk m c t (ix1 e))
        (fun e => wtBlk m c t (ix1 e)) r q
      = blockTerm m c r q t.val := by
  have hN : cfg0.N = 625 := N_0
  have ht : t.val < 625 := by have := t.isLt; omega
  unfold blockPart
  show _ = dite (t.val < 625) _ _
  rw [dif_pos ht]
  refine Finset.sum_congr rfl fun e _ => ?_
  show onehot (rowBlk m c t (ix1 e)) _ * (wtBlk m c t (ix1 e) * gathAcc (tblBlk m c t) (colBlk m c t (ix1 e)) q 20) = _
  rw [rowBlk_apply, wtBlk_apply, colBlk_apply, tblBlk_eq]

/-- After grid point t the output's staging buffer holds, at (r, q), the contributions of blocks 0 .. t. -/
theorem outsAt0_apply (c : Dev nD) (t : ℕ) (ht : t < cfg0.N) (r : Fin 40960) (q : Fin 128) :
    outsAt0 m c t ht (ix2 r q) = runSum (blockTerm m c r.val q) t := by
  have hN : cfg0.N = 625 := N_0
  induction t with
  | zero =>
    refine (congrFun (outsAt0_A m c ⟨0, ht⟩ rfl) (ix2 r q)).trans ?_
    refine (out0_A_apply c (grid0.coords ⟨0, ht⟩) (ms0_0 ⟨0, ht⟩) (hs0_0 ⟨0, ht⟩) (ms0_1 ⟨0, ht⟩) (hs0_1 ⟨0, ht⟩) (ms0_2 ⟨0, ht⟩) (hs0_2 ⟨0, ht⟩) (ms0_3 ⟨0, ht⟩) (hs0_3 ⟨0, ht⟩) (ms0_4 ⟨0, ht⟩) (hs0_4 ⟨0, ht⟩) scM0_0 (Memref.isWhole_whole _) ((hcond0_0 ⟨0, ht⟩).mpr rfl)
      (tblBlk m c ⟨0, ht⟩) (colBlk m c ⟨0, ht⟩) (rowBlk m c ⟨0, ht⟩) (wtBlk m c ⟨0, ht⟩) r q).trans ?_
    show 0 + _ = 0 + blockTerm m c r.val q 0
    rw [blockPart_point m c ⟨0, ht⟩ r.val q]
  | succ t ih =>
    have h0 : ¬ (⟨t + 1, ht⟩ : Fin cfg0.N).val % 625 = 0 := by show ¬ (t + 1) % 625 = 0; omega
    refine (congrFun (outsAt0_B m c ⟨t + 1, ht⟩ h0) (ix2 r q)).trans ?_
    refine (out0_B_apply c (grid0.coords ⟨t + 1, ht⟩) (ms0_0 ⟨t + 1, ht⟩) (hs0_0 ⟨t + 1, ht⟩) (ms0_1 ⟨t + 1, ht⟩) (hs0_1 ⟨t + 1, ht⟩) (ms0_2 ⟨t + 1, ht⟩) (hs0_2 ⟨t + 1, ht⟩) (ms0_3 ⟨t + 1, ht⟩) (hs0_3 ⟨t + 1, ht⟩) (ms0_4 ⟨t + 1, ht⟩) (hs0_4 ⟨t + 1, ht⟩) scM0_0 (Memref.isWhole_whole _) (fun h => h0 ((hcond0_0 ⟨t + 1, ht⟩).mp h))
      (tblBlk m c ⟨t + 1, ht⟩) (colBlk m c ⟨t + 1, ht⟩) (rowBlk m c ⟨t + 1, ht⟩) (wtBlk m c ⟨t + 1, ht⟩)
      (outsAt0 m c t (Nat.lt_of_succ_lt ht)) r q).trans ?_
    show outsAt0 m c t _ (ix2 r q) + _ = runSum (blockTerm m c r.val q) t + blockTerm m c r.val q (t + 1)
    rw [ih (Nat.lt_of_succ_lt ht), blockPart_point m c ⟨t + 1, ht⟩ r.val q]

end Spmm

end
-- ==== Proof.Final.lean ====
/-
  The output array after the pipeline is what the last grid point left in the output's staging buffer.

  The output window's block is the whole array at block index (0, 0) at every one of the 625 grid points, so the buffer is
  carried from point to point and written back once, after point 624; that one block covers every index of the array.
-/
import proofs.«402506_j36644660969839_1_alg».proof.Proof.Gen.KernelIdeal.Frame
import Idealize.ShloMosaic.Lib.Pipeline.Value

set_option maxRecDepth 16384

noncomputable section

namespace Spmm

open Idealize.ShloMosaic Idealize.ShloMosaic.TcCoe Idealize.SL.Sem Cert.KernelIdeal Cert.KernelIdeal.Gen
open Idealize.ShloMosaic.Pipeline (Dat Cfg Window)

variable {F : FTy → Type} [FloatOps F] (m : (ℓ : Loc nD τ sig) → Buf (Elt F) ℓ)

/-- The grid's last point is point 624. -/
theorem last_lt : 624 < cfg0.N := by rw [show cfg0.N = 625 from N_0]; omega

/-- The output window's index map is constant: block (0, 0) at every grid coordinate. -/
theorem index_zero (i : grid0.Coords) (a : Fin 2) : cc0_transform_4 i a = 0 := by
  fin_cases a <;> rfl

/-- So its block starts at the array's origin at every point. -/
theorem off_zero (t : Fin cfg0.N) :
    (fun a => win0_4.index t a * main_v2.ty.shape.size a) = fun _ => 0 :=
  funext fun a => by
    show cc0_transform_4 (grid0.coords t) a * _ = 0
    rw [index_zero, Nat.zero_mul]

/-- The block is the whole array: contents of the array, read through it, are themselves. -/
theorem read_blk (c : Dev nD) (t : Fin cfg0.N) (G : Buf (Elt F) ((c : Thread nD τ).loc main_v2)) :
    ((cfg0.win 4).blk t).view.read (Elt F) G = G :=
  Memref.read_access_unit_zero (Elt F) main_v2 (off_zero t) (fun a => by rw [congrFun (off_zero t) a]; simp) G

/-- Nothing of the block overhangs the array, so the write-back moves all of it. -/
theorem cut_blk (t : Fin cfg0.N) (X : S40960x128.Idx → Elt F .f32) :
    (cfg0.win 4).cut (grid0.coords t) X = X := rfl

/-- Only the last point writes the block back, and what it writes is what it left in the staging buffer. -/
theorem flushed_last (c : Dev nD) (t : Fin cfg0.N) (hf : (cfg0.win 4).flush t = true) :
    (dats m 0 c).flushed 4 t = ((cfg0.win 4).blk t).view.read (Elt F) (outsAt0 m c 624 last_lt) := by
  have hN : cfg0.N = 625 := N_0
  have h : t.val = 624 := by have := (flush0_4 t).mp hf; have := t.isLt; omega
  obtain ⟨n, hn⟩ := t
  obtain rfl : n = 624 := h
  rw [read_blk c]
  exact (cut_blk _ _).trans (after0_4 m c ⟨624, hn⟩)

/-- Every index of the array lies in the block. -/
theorem mem_blk (t : Fin cfg0.N) (i : S40960x128.Idx) : i ∈ ((cfg0.win 4).blk t).view.set := by
  show i ∈ ((View.whole main_v2).slice (win0_4.rect t)).set
  rw [View.set_slice_whole, Rect.mem_set_unit]
  intro a
  have h0 : win0_4.index t a * win0_4.size a = 0 := congrFun (off_zero t) a
  rw [h0, Nat.zero_add]
  exact ⟨Nat.zero_le _, (i a).isLt⟩

/-- The one block of the output is written back after the last point only: the array ends at what point 624 left. -/
theorem out_final (c : Dev nD) :
    ((dats m 0 c).arrAt 4 cfg0.N : S40960x128.Idx → Elt F .f32) = outsAt0 m c 624 (by rw [show cfg0.N = 625 from N_0]; omega) :=
  (dats m 0 c).arrAt_eq_of_cover 4 (outsAt0 m c 624 last_lt) (flushed_last m c) fun i =>
    ⟨⟨624, last_lt⟩, (flush0_4 _).mpr rfl, mem_blk _ i⟩

end Spmm

end
-- ==== Proof.Algebra.lean ====
/-
  Two facts about sums of one-hot entries over the extended reals.

  The one-hot gather taken in 20 chunks of 2048 rows returns the selected row of the padded table: of the 40960 terms
  exactly one has its one-hot entry equal to 1, the others vanish. The blocks' contributions to an output entry, added
  one block after the other, are the sum over all 640000 edges of the terms whose row word is the entry's row.

  Only these laws of the extended reals are used: addition and multiplication are commutative monoids, 0 * x = 0,
  1 * x = x, x + 0 = x.
-/
import proofs.«402506_j36644660969839_1_alg».proof.Proof.Spec
import Mathlib.Algebra.BigOperators.Fin
import Mathlib.Data.EReal.Inv
import Mathlib.Logic.Equiv.Fin.Basic
import Idealize.ShloMosaic.Lib.ValueIdx

noncomputable section

namespace Spmm

open Idealize.ShloMosaic Idealize.ShloMosaic.ValueIdx

/-- A one-hot entry times x is x where the words are equal and 0 elsewhere. -/
theorem onehot_mul (a b : BitVec 32) (x : EReal) : onehot a b * x = if a = b then x else 0 := by
  unfold onehot
  split
  · rw [one_mul]
  · rw [zero_mul]

/-- A word equals the word of a number below 2^32 exactly when its value is that number. -/
theorem eq_ofNat_iff (c : BitVec 32) (m : ℕ) (hm : m < 2 ^ 32) : c = BitVec.ofNat 32 m ↔ c.toNat = m := by
  constructor
  · rintro rfl
    rw [BitVec.toNat_ofNat, Nat.mod_eq_of_lt hm]
  · intro h
    apply BitVec.eq_of_toNat_eq
    rw [BitVec.toNat_ofNat, Nat.mod_eq_of_lt hm, h]

/-- The accumulated gather after k chunks is the sum of the first k chunks. -/
theorem gathAcc_eq_sum (xp : (⟨2, ![40960, 128]⟩ : Shape).Idx → EReal) (c : BitVec 32) (q : Fin 128) (k : ℕ) :
    gathAcc xp c q k = ∑ j ∈ Finset.range k, gathChunk xp c q j := by
  induction k with
  | zero => rfl
  | succ k ih => rw [Finset.sum_range_succ, ← ih]; rfl

/-- A chunk that does not hold row c contributes nothing. -/
theorem gathChunk_miss (xp : (⟨2, ![40960, 128]⟩ : Shape).Idx → EReal) (c : BitVec 32) (q : Fin 128) (k : ℕ)
    (hk : k ≠ c.toNat / 2048) : gathChunk xp c q k = 0 := by
  unfold gathChunk
  split
  · rename_i h
    apply Finset.sum_eq_zero
    intro n _
    rw [onehot_mul, if_neg]
    intro he
    have hn := n.isLt
    have := (eq_ofNat_iff c (2048 * k + n.val) (by omega)).1 he
    omega
  · rfl

/-- The chunk that holds row c contributes that row. -/
theorem gathChunk_hit (xp : (⟨2, ![40960, 128]⟩ : Shape).Idx → EReal) (c : BitVec 32) (q : Fin 128)
    (hc : c.toNat < 40960) :
    gathChunk xp c q (c.toNat / 2048) = xp (ix2 (⟨c.toNat, hc⟩ : Fin 40960) q) := by
  unfold gathChunk
  rw [dif_pos (by omega)]
  rw [Finset.sum_eq_single (⟨c.toNat % 2048, Nat.mod_lt _ (by omega)⟩ : Fin 2048)]
  · have hval : 2048 * (c.toNat / 2048) + c.toNat % 2048 = c.toNat := Nat.div_add_mod _ _
    rw [onehot_mul, if_pos ((eq_ofNat_iff c _ (by omega)).2 hval.symm)]
    congr 2
    exact Fin.ext hval
  · intro n _ hn
    rw [onehot_mul, if_neg]
    intro he
    have hlt := n.isLt
    have := (eq_ofNat_iff c (2048 * (c.toNat / 2048) + n.val) (by omega)).1 he
    apply hn
    apply Fin.ext
    show n.val = c.toNat % 2048
    omega
  · intro h
    exact absurd (Finset.mem_univ _) h

/-- Summed over all 20 chunks, the one-hot gather of the padded table at a column word inside the table is that row. -/
theorem gathAcc_full (xp : (⟨2, ![40960, 128]⟩ : Shape).Idx → EReal) (c : BitVec 32) (q : Fin 128) (hc : c.toNat < 40960) :
    gathAcc xp c q 20 = xp (ix2 (⟨c.toNat, hc⟩ : Fin 40960) q) := by
  rw [gathAcc_eq_sum, Finset.sum_eq_single (c.toNat / 2048)]
  · exact gathChunk_hit xp c q hc
  · intro k _ hk
    exact gathChunk_miss xp c q k hk
  · intro h
    exact absurd (Finset.mem_range.2 (by omega)) h

/-- Contributions added one after the other, the first to 0, are 0 plus their sum. -/
theorem runSum_eq_sum (P : ℕ → EReal) (n : ℕ) : runSum P n = 0 + ∑ t ∈ Finset.range (n + 1), P t := by
  induction n with
  | zero => rw [Finset.sum_range_one]; rfl
  | succ n ih => rw [Finset.sum_range_succ _ (n + 1), ← add_assoc, ← ih]; rfl

/-- For a row number below 40000, a word is the row's word exactly when, read as a signed integer, it is the row. -/
theorem eq_ofNat_iff_toInt (a : BitVec 32) (r : ℕ) (hr : r < 40000) :
    a = BitVec.ofNat 32 r ↔ a.toInt = (r : ℤ) := by
  rw [eq_ofNat_iff a r (by omega), BitVec.toInt_eq_toNat_cond]
  have := a.isLt
  split <;> omega

/-- An edge's one-hot term against row r is its weight where the edge's row word, read as a signed integer, is r. -/
theorem onehot_row_mul (rows : Fin 640000 → BitVec 32) (w : Fin 640000 → EReal) (r : Fin 40000) (E : Fin 640000) :
    onehot (rows E) (BitVec.ofNat 32 r.val) * w E = if (rows E).toInt = (r.val : ℤ) then w E else 0 := by
  rw [onehot_mul]
  exact if_congr (eq_ofNat_iff_toInt _ _ r.isLt) rfl rfl

/-- A sum over the 640000 edges taken block by block: 625 blocks of 1024 edges. -/
theorem sum_blocks (G : Fin 640000 → EReal) :
    ∑ t : Fin 625, ∑ e : Fin 1024, G ⟨1024 * t.val + e.val, by omega⟩ = ∑ E : Fin 640000, G E := by
  let eqv : Fin 625 × Fin 1024 ≃ Fin 640000 := finProdFinEquiv.trans (finCongr (by norm_num))
  rw [← Fintype.sum_equiv eqv (fun p => G ⟨1024 * p.1.val + p.2.val, by omega⟩) G
    (fun p => congrArg G (Fin.ext (Nat.add_comm _ _)))]
  exact (Fintype.sum_prod_type' (fun (t : Fin 625) (e : Fin 1024) => G ⟨1024 * t.val + e.val, by omega⟩)).symm

/-- The blocks' contributions added one after the other are the sum over all edges of the terms whose row word, read as a signed integer, is r. -/
theorem runSum_blocks (rows : Fin 640000 → BitVec 32) (w : Fin 640000 → EReal) (r : Fin 40000) :
    runSum (fun t => if ht : t < 625 then
        ∑ e : Fin 1024, onehot (rows ⟨1024 * t + e.val, by omega⟩) (BitVec.ofNat 32 r.val) * w ⟨1024 * t + e.val, by omega⟩
      else 0) 624
      = 0 + ∑ E : Fin 640000, if (rows E).toInt = (r.val : ℤ) then w E else 0 := by
  rw [runSum_eq_sum, show (624 + 1 : ℕ) = 625 from rfl, Finset.sum_range,
    ← sum_blocks (fun E => if (rows E).toInt = (r.val : ℤ) then w E else 0)]
  refine congrArg (fun s => (0 : EReal) + s) ?_
  refine Finset.sum_congr rfl (fun t _ => ?_)
  rw [dif_pos t.isLt]
  refine Finset.sum_congr rfl (fun e _ => ?_)
  exact onehot_row_mul rows w r _

end Spmm

end
-- ==== Proof.RefTerm.lean ====
/-
  The reference's result as two parts: the aggregate, a segment sum over the edges' row words of the edge weight times
  the gathered table row (the column word wrapped when negative, then clamped by the gather), and the tail, which
  divides the aggregate by the row's degree (the segment sum of the weights) where that is not 0, puts 0 where it is,
  and adds the bias. The kernel's program ends in the same tail over its own aggregate.
-/
import proofs.«402506_j36644660969839_1_alg».proof.Proof.Gen.ReferenceIdeal
import Idealize.ShloMosaic.PureOps.Ideal

noncomputable section

namespace Spmm

open Idealize.ShloMosaic Cert.ReferenceIdeal Cert.ReferenceIdeal.Facts₀

variable [Cert.ReferenceIdeal.Facts]

/-- The reference's aggregate: the accumulating scatter, by the row words, of weight times gathered row. -/
def refAgg (x : FVec Ideal S40000x128 .f32) (rows cols : IVec S640000 32) (av : FVec Ideal S640000 .f32) :
    FVec Ideal S40000x128 .f32 :=
  Host.scatterAdd scatter_S40000x128_S640000x1_S640000x128_1_0_0_1 (broadcastInDim S40000x128 ![] bcast_S_S40000x128 (constant (F := Ideal) S_ .f32 0x00000000#32)) (broadcastInDim S640000x1 ![0] bcast_S640000_S640000x1_0 rows) (mulf (broadcastInDim S640000x128 ![0, 1] bcast_S640000x1_S640000x128_0_1 (broadcastInDim S640000x1 ![0] bcast_S640000_S640000x1_0 av)) (Host.gather gather_S40000x128_S640000x1_S640000x128_1_0_n_n_0_1_1128 x (broadcastInDim S640000x1 ![0] bcast_S640000_S640000x1_0 (select (cmpi .slt cols (broadcastInDim S640000 ![] bcast_S_S640000 (constantI S_ 32 0#32))) (addi cols (broadcastInDim S640000 ![] bcast_S_S640000 (constantI S_ 32 40000#32))) cols))))

/-- The tail both programs end in: aggregate over degree where the degree is not 0, else 0, plus the bias. -/
def tail (agg : FVec Ideal S40000x128 .f32) (rows : IVec S640000 32) (av : FVec Ideal S640000 .f32)
    (bias : FVec Ideal S128 .f32) : FVec Ideal S40000x128 .f32 :=
  addf (select (broadcastInDim S40000x128 ![0, 1] bcast_S40000x1_S40000x128_0_1 (cmpf .oeq (broadcastInDim S40000x1 ![0] bcast_S40000_S40000x1_0 (Host.scatterAdd scatter_S40000_S640000x1_S640000_n_0_0_1 (broadcastInDim S40000 ![] bcast_S_S40000 (constant (F := Ideal) S_ .f32 0x00000000#32)) (broadcastInDim S640000x1 ![0] bcast_S640000_S640000x1_0 rows) av)) (broadcastInDim S40000x1 ![] bcast_S_S40000x1 (constant (F := Ideal) S_ .f32 0x00000000#32)))) (broadcastInDim S40000x128 ![] bcast_S_S40000x128 (id (constant (F := Ideal) S_ .f32 0x00000000#32))) (Host.divf agg (broadcastInDim S40000x128 ![0, 1] bcast_S40000x1_S40000x128_0_1 (select (cmpf .oeq (broadcastInDim S40000x1 ![0] bcast_S40000_S40000x1_0 (Host.scatterAdd scatter_S40000_S640000x1_S640000_n_0_0_1 (broadcastInDim S40000 ![] bcast_S_S40000 (constant (F := Ideal) S_ .f32 0x00000000#32)) (broadcastInDim S640000x1 ![0] bcast_S640000_S640000x1_0 rows) av)) (broadcastInDim S40000x1 ![] bcast_S_S40000x1 (constant (F := Ideal) S_ .f32 0x00000000#32))) (broadcastInDim S40000x1 ![] bcast_S_S40000x1 (id (constant (F := Ideal) S_ .f32 0x3F800000#32))) (broadcastInDim S40000x1 ![0] bcast_S40000_S40000x1_0 (Host.scatterAdd scatter_S40000_S640000x1_S640000_n_0_0_1 (broadcastInDim S40000 ![] bcast_S_S40000 (constant (F := Ideal) S_ .f32 0x00000000#32)) (broadcastInDim S640000x1 ![0] bcast_S640000_S640000x1_0 rows) av)))))) (broadcastInDim S40000x128 ![0, 1] bcast_S1x128_S40000x128_0_1 (broadcastInDim S1x128 ![1] bcast_S128_S1x128_1 bias))

end Spmm

end
-- ==== Proof.LibRows.lean ====
/-
  A row gather and a segment sum, read at an index.

  gather_rows: the gather that x[idx] of a matrix lowers to (start indices an [E,1] column, the row axis collapsed and
  start-indexed, the column axis an offset axis) reads, at (e, q), the matrix at the row that idx (e,0) names — read signed
  and clamped into the table — and column q.
  scatterAdd_rows / scatterAdd_vec: the accumulating scatter that a segment sum lowers to adds, to the operand's entry at
  row r, every update row e whose index word, read signed and not clamped, is r; a word outside the table adds nowhere.
-/
import Idealize.ShloMosaic.PureOps.Ideal
import Idealize.ShloMosaic.PureOps.Contract
import Idealize.ShloMosaic.Lib.ValueIdx
import Idealize.ShloMosaic.Lib.StableHlo.Predicate

noncomputable section

namespace Gcn.Rows

open Idealize.ShloMosaic Idealize.ShloMosaic.ValueIdx

theorem gather_rows {α : Type} {N E C w : ℕ} (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q)
      = x (ix2 (⟨min (idx (ix2 e (0 : Fin 1))).toInt.toNat (N - 1), by omega⟩ : Fin N) q) := by
  unfold Host.gather
  congr 1
  funext a
  apply Fin.ext
  have hb : ∀ a, a ∉ d.operandBatchingDims := by intro a; rw [hob]; exact List.not_mem_nil
  have hq : ∀ x : Fin 2, x = 1 → ((ix2 e q : (⟨2, ![E, C]⟩ : Shape).Idx) x).val = q.val := by
    intro x hx; subst hx; rfl
  have he : ∀ x : Fin 2, x = 0 → ((ix2 e q : (⟨2, ![E, C]⟩ : Shape).Idx) x).val = e.val := by
    intro x hx; subst hx; rfl
  -- the result's one offset axis is axis 1, its one batch axis is axis 0
  have hoffall : ∀ y ∈ d.offsetDims, y = 1 := by
    intro y hy; rw [hoff] at hy; exact List.mem_singleton.mp hy
  have hbatall : ∀ y ∈ d.batchDims, y = 0 := by
    intro y hy
    have hy1 : y ∉ d.offsetDims := by
      have := (List.mem_filter.mp hy).2
      simpa using this
    rw [hoff] at hy1
    match y with
    | ⟨0, _⟩ => rfl
    | ⟨1, _⟩ => exact absurd (List.mem_singleton.mpr rfl) hy1
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    have hlen : d.startIndexMap.length = 1 := by rw [hsim]; rfl
    -- every component of the start index of (e, q) is read at (e, 0)
    have hsi : ∀ c, d.siIdx (ix2 e q) c = ix2 e (0 : Fin 1) := by
      intro c
      funext b
      match b with
      | ⟨0, _⟩ =>
        unfold GatherDims.siIdx
        rw [dif_neg (by rw [hivd]; simp)]
        unfold GatherDims.siCoord
        apply Fin.ext
        simp only [Fin.val_cast]
        exact he _ (hbatall _ (List.getElem_mem _))
      | ⟨1, _⟩ =>
        unfold GatherDims.siIdx
        rw [dif_pos (by rw [hivd])]
        apply Fin.ext
        show c.val = 0
        have := c.isLt
        omega
    show d.start (ix2 e q) idx 0 + d.batchCoord (ix2 e q) 0 + d.offCoord (ix2 e q) 0 = min _ (N - 1)
    rw [GatherDims.batchCoord_eq_zero _ _ _ (hb _), GatherDims.offCoord_eq_zero _ _ _ hk]
    simp only [Nat.add_zero]
    unfold GatherDims.start
    rw [dif_pos hm, hsi]
    show min (idx _).toInt.toNat (N - d.sliceSizes 0) = _
    rw [hsl]
  | ⟨1, _⟩ =>
    have hk : (1 : Fin 2) ∈ d.sKept := by rw [GatherDims.mem_sKept, hcoll]; exact ⟨by simp, hb _⟩
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (hoffall _ (List.getElem_mem _))

/-! The accumulating scatter of rows: on axis 0 the window starts at the index word read signed and has no extent, on
    axis 1 it starts at 0 and its coordinate is the update's column. -/

private theorem rows_siIdx {R E C : ℕ} (d : ScatterDims ⟨2, ![R, C]⟩ ⟨2, ![E, 1]⟩ ⟨2, ![E, C]⟩)
    (huw : d.updateWindowDims = [1]) (hsd : d.scatterDimsToOperandDims = [0]) (hivd : d.indexVectorDim = 1)
    (e : Fin E) (q' : Fin C) (c : Fin d.scatterDimsToOperandDims.length) :
    d.siIdx (ix2 e q') c = ix2 e (0 : Fin 1) := by
  have he : ∀ x : Fin 2, x = 0 → ((ix2 e q' : (⟨2, ![E, C]⟩ : Shape).Idx) x).val = e.val := by
    intro x hx; subst hx; rfl
  have hscall : ∀ y ∈ d.uScatter, y = 0 := by
    intro y hy
    have hy1 : y ∉ d.updateWindowDims := by
      have := (List.mem_filter.mp hy).2
      simpa using this
    rw [huw] at hy1
    match y with
    | ⟨0, _⟩ => rfl
    | ⟨1, _⟩ => exact absurd (List.mem_singleton.mpr rfl) hy1
  have hlen : d.scatterDimsToOperandDims.length = 1 := by rw [hsd]; rfl
  funext b
  match b with
  | ⟨0, _⟩ =>
    unfold ScatterDims.siIdx
    rw [dif_neg (by rw [hivd]; simp)]
    unfold ScatterDims.siCoord
    apply Fin.ext
    simp only [Fin.val_cast]
    exact he _ (hscall _ (List.getElem_mem _))
  | ⟨1, _⟩ =>
    unfold ScatterDims.siIdx
    rw [dif_pos (by rw [hivd])]
    apply Fin.ext
    show c.val = 0
    have := c.isLt
    omega

private theorem rows_start0 {R E C w : ℕ} (d : ScatterDims ⟨2, ![R, C]⟩ ⟨2, ![E, 1]⟩ ⟨2, ![E, C]⟩)
    (huw : d.updateWindowDims = [1]) (hsd : d.scatterDimsToOperandDims = [0]) (hivd : d.indexVectorDim = 1)
    (idx : IVec ⟨2, ![E, 1]⟩ w) (e : Fin E) (q' : Fin C) :
    d.start (ix2 e q') idx 0 = (idx (ix2 e (0 : Fin 1))).toInt := by
  have hm : (0 : Fin 2) ∈ d.scatterDimsToOperandDims := by rw [hsd]; exact List.mem_singleton.mpr rfl
  unfold ScatterDims.start
  rw [dif_pos hm, rows_siIdx d huw hsd hivd]

private theorem rows_start1 {R E C w : ℕ} (d : ScatterDims ⟨2, ![R, C]⟩ ⟨2, ![E, 1]⟩ ⟨2, ![E, C]⟩)
    (hsd : d.scatterDimsToOperandDims = [0])
    (idx : IVec ⟨2, ![E, 1]⟩ w) (e : Fin E) (q' : Fin C) :
    d.start (ix2 e q') idx 1 = 0 := by
  have hm : (1 : Fin 2) ∉ d.scatterDimsToOperandDims := by rw [hsd]; simp
  unfold ScatterDims.start
  rw [dif_neg hm]

private theorem rows_window0 {R E C : ℕ} (d : ScatterDims ⟨2, ![R, C]⟩ ⟨2, ![E, 1]⟩ ⟨2, ![E, C]⟩)
    (hins : d.insertedWindowDims = [0]) (e : Fin E) (q' : Fin C) :
    d.window (ix2 e q') 0 = 0 := by
  have hk : (0 : Fin 2) ∉ d.sKept := by
    intro h
    have := (List.mem_filter.mp h).2
    rw [hins] at this
    simp at this
  unfold ScatterDims.window
  rw [dif_neg hk]

private theorem rows_window1 {R E C : ℕ} (d : ScatterDims ⟨2, ![R, C]⟩ ⟨2, ![E, 1]⟩ ⟨2, ![E, C]⟩)
    (huw : d.updateWindowDims = [1]) (hins : d.insertedWindowDims = [0]) (e : Fin E) (q' : Fin C) :
    d.window (ix2 e q') 1 = q'.val := by
  have hk : (1 : Fin 2) ∈ d.sKept := by
    refine List.mem_filter.mpr ⟨List.mem_finRange _, ?_⟩
    rw [hins]; simp
  have hq : ∀ x : Fin 2, x = 1 → ((ix2 e q' : (⟨2, ![E, C]⟩ : Shape).Idx) x).val = q'.val := by
    intro x hx; subst hx; rfl
  have hwall : ∀ y ∈ d.updateWindowDims, y = 1 := by
    intro y hy; rw [huw] at hy; exact List.mem_singleton.mp hy
  unfold ScatterDims.window
  rw [dif_pos hk]
  exact hq _ (hwall _ (List.getElem_mem _))

/-- An update entry (e, q') lands on the operand entry (r, q) exactly when its index word, read signed, is r and its
    column is q. -/
private theorem rows_resultIdx_iff {R E C w : ℕ} (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1) (idx : IVec ⟨2, ![E, 1]⟩ w) (e : Fin E) (q' q : Fin C) (r : Fin R) :
    d.resultIdx? (ix2 e q') idx = some (ix2 r q)
      ↔ (idx (ix2 e (0 : Fin 1))).toInt = (r.val : ℤ) ∧ q' = q := by
  have hs0 := rows_start0 d huw hsd hivd idx e q'
  have hs1 := rows_start1 d hsd idx e q'
  have hw0 := rows_window0 d hins e q'
  have hw1 := rows_window1 d huw hins e q'
  have hr := r.isLt
  have hq := q.isLt
  have hq' := q'.isLt
  unfold ScatterDims.resultIdx?
  constructor
  · intro h
    split at h
    · rename_i hh
      have hf := Option.some.inj h
      have h0 : (d.start (ix2 e q') idx 0 + (d.window (ix2 e q') 0 : ℤ)).toNat = r.val :=
        congrArg (fun f : (⟨2, ![R, C]⟩ : Shape).Idx => (f 0).val) hf
      have h1 : (d.start (ix2 e q') idx 1 + (d.window (ix2 e q') 1 : ℤ)).toNat = q.val :=
        congrArg (fun f : (⟨2, ![R, C]⟩ : Shape).Idx => (f 1).val) hf
      have hh0 : 0 ≤ d.start (ix2 e q') idx 0 + (d.window (ix2 e q') 0 : ℤ) := (hh 0).1
      rw [hs0, hw0] at h0 hh0
      rw [hs1, hw1] at h1
      refine ⟨by omega, Fin.ext (by omega)⟩
    · exact absurd h (by simp)
  · rintro ⟨h0, rfl⟩
    have hh : ∀ a, 0 ≤ d.start (ix2 e q') idx a + (d.window (ix2 e q') a : ℤ)
        ∧ d.start (ix2 e q') idx a + (d.window (ix2 e q') a : ℤ) < ((⟨2, ![R, C]⟩ : Shape).size a : ℤ) := by
      intro a
      match a with
      | ⟨0, _⟩ =>
        show 0 ≤ d.start (ix2 e q') idx 0 + (d.window (ix2 e q') 0 : ℤ)
          ∧ d.start (ix2 e q') idx 0 + (d.window (ix2 e q') 0 : ℤ) < (R : ℤ)
        rw [hs0, hw0]; omega
      | ⟨1, _⟩ =>
        show 0 ≤ d.start (ix2 e q') idx 1 + (d.window (ix2 e q') 1 : ℤ)
          ∧ d.start (ix2 e q') idx 1 + (d.window (ix2 e q') 1 : ℤ) < (C : ℤ)
        rw [hs1, hw1]; omega
    rw [dif_pos hh]
    congr 1
    funext a
    apply Fin.ext
    match a with
    | ⟨0, _⟩ =>
      show (d.start (ix2 e q') idx 0 + (d.window (ix2 e q') 0 : ℤ)).toNat = r.val
      rw [hs0, hw0]; omega
    | ⟨1, _⟩ =>
      show (d.start (ix2 e q') idx 1 + (d.window (ix2 e q') 1 : ℤ)).toNat = q'.val
      rw [hs1, hw1]; omega

theorem scatterAdd_rows {R E C w : ℕ} (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1)
    (x : (⟨2, ![R, C]⟩ : Shape).Idx → EReal) (idx : IVec ⟨2, ![E, 1]⟩ w) (upd : (⟨2, ![E, C]⟩ : Shape).Idx → EReal)
    (r : Fin R) (q : Fin C) :
    Ideal.hostScatterAdd d x idx upd (ix2 r q)
      = x (ix2 r q) + ∑ e : Fin E, if (idx (ix2 e (0 : Fin 1))).toInt = (r.val : ℤ) then upd (ix2 e q) else 0 := by
  unfold Ideal.hostScatterAdd
  congr 1
  rw [Finset.sum_filter, sum_idx2]
  refine Finset.sum_congr rfl fun e _ => ?_
  simp only [rows_resultIdx_iff d huw hins hsd hivd]
  by_cases h : (idx (ix2 e (0 : Fin 1))).toInt = (r.val : ℤ)
  · simp only [h, true_and, if_true]
    rw [Finset.sum_ite_eq' Finset.univ q (fun q' => upd (ix2 e q'))]
    simp
  · simp only [h, false_and, if_false, Finset.sum_const_zero]

/-! The accumulating scatter of a vector: the same with no column. -/

private theorem vec_siIdx {R E : ℕ} (d : ScatterDims ⟨1, ![R]⟩ ⟨2, ![E, 1]⟩ ⟨1, ![E]⟩)
    (hsd : d.scatterDimsToOperandDims = [0]) (hivd : d.indexVectorDim = 1)
    (e : Fin E) (c : Fin d.scatterDimsToOperandDims.length) :
    d.siIdx (ix1 e) c = ix2 e (0 : Fin 1) := by
  have he : ∀ x : Fin 1, ((ix1 e : (⟨1, ![E]⟩ : Shape).Idx) x).val = e.val := by
    intro x
    obtain rfl : x = 0 := Subsingleton.elim _ _
    rfl
  have hlen : d.scatterDimsToOperandDims.length = 1 := by rw [hsd]; rfl
  funext b
  match b with
  | ⟨0, _⟩ =>
    unfold ScatterDims.siIdx
    rw [dif_neg (by rw [hivd]; simp)]
    unfold ScatterDims.siCoord
    apply Fin.ext
    simp only [Fin.val_cast]
    exact he _
  | ⟨1, _⟩ =>
    unfold ScatterDims.siIdx
    rw [dif_pos (by rw [hivd])]
    apply Fin.ext
    show c.val = 0
    have := c.isLt
    omega

private theorem vec_start0 {R E w : ℕ} (d : ScatterDims ⟨1, ![R]⟩ ⟨2, ![E, 1]⟩ ⟨1, ![E]⟩)
    (hsd : d.scatterDimsToOperandDims = [0]) (hivd : d.indexVectorDim = 1)
    (idx : IVec ⟨2, ![E, 1]⟩ w) (e : Fin E) :
    d.start (ix1 e) idx 0 = (idx (ix2 e (0 : Fin 1))).toInt := by
  have hm : (0 : Fin 1) ∈ d.scatterDimsToOperandDims := by rw [hsd]; exact List.mem_singleton.mpr rfl
  unfold ScatterDims.start
  rw [dif_pos hm, vec_siIdx d hsd hivd]

private theorem vec_window0 {R E : ℕ} (d : ScatterDims ⟨1, ![R]⟩ ⟨2, ![E, 1]⟩ ⟨1, ![E]⟩)
    (hins : d.insertedWindowDims = [0]) (e : Fin E) :
    d.window (ix1 e) 0 = 0 := by
  have hk : (0 : Fin 1) ∉ d.sKept := by
    intro h
    have := (List.mem_filter.mp h).2
    rw [hins] at this
    simp at this
  unfold ScatterDims.window
  rw [dif_neg hk]

/-- An update entry e lands on the operand entry r exactly when its index word, read signed, is r. -/
private theorem vec_resultIdx_iff {R E w : ℕ} (d : ScatterDims ⟨1, ![R]⟩ ⟨2, ![E, 1]⟩ ⟨1, ![E]⟩)
    (hins : d.insertedWindowDims = [0]) (hsd : d.scatterDimsToOperandDims = [0])
    (hivd : d.indexVectorDim = 1) (idx : IVec ⟨2, ![E, 1]⟩ w) (e : Fin E) (r : Fin R) :
    d.resultIdx? (ix1 e) idx = some (ix1 r) ↔ (idx (ix2 e (0 : Fin 1))).toInt = (r.val : ℤ) := by
  have hs0 := vec_start0 d hsd hivd idx e
  have hw0 := vec_window0 d hins e
  have hr := r.isLt
  unfold ScatterDims.resultIdx?
  constructor
  · intro h
    split at h
    · rename_i hh
      have hf := Option.some.inj h
      have h0 : (d.start (ix1 e) idx 0 + (d.window (ix1 e) 0 : ℤ)).toNat = r.val :=
        congrArg (fun f : (⟨1, ![R]⟩ : Shape).Idx => (f 0).val) hf
      have hh0 : 0 ≤ d.start (ix1 e) idx 0 + (d.window (ix1 e) 0 : ℤ) := (hh 0).1
      rw [hs0, hw0] at h0 hh0
      omega
    · exact absurd h (by simp)
  · intro h0
    have hh : ∀ a, 0 ≤ d.start (ix1 e) idx a + (d.window (ix1 e) a : ℤ)
        ∧ d.start (ix1 e) idx a + (d.window (ix1 e) a : ℤ) < ((⟨1, ![R]⟩ : Shape).size a : ℤ) := by
      intro a
      match a with
      | ⟨0, _⟩ =>
        show 0 ≤ d.start (ix1 e) idx 0 + (d.window (ix1 e) 0 : ℤ)
          ∧ d.start (ix1 e) idx 0 + (d.window (ix1 e) 0 : ℤ) < (R : ℤ)
        rw [hs0, hw0]; omega
    rw [dif_pos hh]
    congr 1
    funext a
    apply Fin.ext
    match a with
    | ⟨0, _⟩ =>
      show (d.start (ix1 e) idx 0 + (d.window (ix1 e) 0 : ℤ)).toNat = r.val
      rw [hs0, hw0]; omega

theorem scatterAdd_vec {R E w : ℕ} (d : ScatterDims ⟨1, ![R]⟩ ⟨2, ![E, 1]⟩ ⟨1, ![E]⟩)
    (huw : d.updateWindowDims = []) (hins : d.insertedWindowDims = [0]) (hsd : d.scatterDimsToOperandDims = [0])
    (hivd : d.indexVectorDim = 1)
    (x : (⟨1, ![R]⟩ : Shape).Idx → EReal) (idx : IVec ⟨2, ![E, 1]⟩ w) (upd : (⟨1, ![E]⟩ : Shape).Idx → EReal)
    (r : Fin R) :
    Ideal.hostScatterAdd d x idx upd (ix1 r)
      = x (ix1 r) + ∑ e : Fin E, if (idx (ix2 e (0 : Fin 1))).toInt = (r.val : ℤ) then upd (ix1 e) else 0 := by
  unfold Ideal.hostScatterAdd
  congr 1
  -- a rank-1 index set is its coordinate range
  rw [Finset.sum_filter,
    ← Equiv.sum_comp (⟨ix1, fun i => i 0, fun _ => rfl, fun i => (eq_ix1 i).symm⟩ : Fin E ≃ (⟨1, ![E]⟩ : Shape).Idx)]
  refine Finset.sum_congr rfl fun e _ => ?_
  exact if_congr (vec_resultIdx_iff d hins hsd hivd idx e r) rfl rfl

end Gcn.Rows

end
-- ==== Proof.RefAgg.lean ====
/-
  The reference's aggregate read at an index.

  At row r and column q the aggregate is 0 plus the sum, over the edges whose row word reads r, of the edge's weight
  times the table at the row the edge's column word names and column q. The reference wraps a negative column word by
  the table's height and the gather clamps the result into the table; for a column word already in [0, 40000) neither
  changes it.
-/
import proofs.«402506_j36644660969839_1_alg».proof.Proof.RefTerm
import proofs.«402506_j36644660969839_1_alg».proof.Proof.Spec
import proofs.«402506_j36644660969839_1_alg».proof.Proof.LibRows
import Idealize.ShloMosaic.Lib.ValueIdx
import Idealize.ShloMosaic.PureOps.Ideal
import Idealize.ShloMosaic.PureOps.Ideal.Laws

noncomputable section

namespace Spmm

open Idealize.ShloMosaic Idealize.ShloMosaic.ValueIdx Cert.ReferenceIdeal

/-! Index words. -/

/-- A word that reads, signed, as a number that is not negative is not below 0 in the signed order. -/
theorem cmpi_slt_zero_of_nonneg {w : BitVec 32} (h0 : 0 ≤ w.toInt) : IntOp.cmpi .slt w 0#32 = 0#1 := by
  have h : w.slt 0#32 = false := by
    rw [BitVec.slt, decide_eq_false_iff_not]
    have : (0#32 : BitVec 32).toInt = 0 := by decide
    omega
  show BitVec.ofBool (w.slt 0#32) = 0#1
  rw [h]; rfl

/-- The wrap of a negative word by the table's height leaves a word that is not negative as it is. -/
theorem wrap_of_nonneg {w : BitVec 32} (h0 : 0 ≤ w.toInt) :
    Scalar.select (IntOp.cmpi .slt w 0#32) (IntOp.addi w 40000#32) w = w := by
  rw [cmpi_slt_zero_of_nonneg h0, select_zero]

/-- The clamp into the table leaves a word in [0, 40000) as it is, and read signed it is the word read unsigned. -/
theorem clamp_of_range {w : BitVec 32} (h0 : 0 ≤ w.toInt) (h1 : w.toInt < 40000) :
    min w.toInt.toNat (40000 - 1) = w.toNat := by
  have hw := w.isLt
  rw [BitVec.toInt_eq_toNat_cond] at h0 h1 ⊢
  by_cases h : 2 * w.toNat < 2 ^ 32
  · rw [if_pos h] at h0 h1 ⊢; omega
  · rw [if_neg h] at h0 h1; omega

/-! Broadcasts read at an index. -/

/-- A vector as a one-column matrix reads, at (e, 0), the vector at e. -/
theorem bcast_col_apply {α : Type} {n : ℕ} (h : (⟨1, ![n]⟩ : Shape).BroadcastsInDim ⟨2, ![n, 1]⟩ ![0])
    (v : (⟨1, ![n]⟩ : Shape).Idx → α) (e : Fin n) (z : Fin 1) :
    broadcastInDim ⟨2, ![n, 1]⟩ ![0] h v (ix2 e z) = v (ix1 e) := by
  unfold broadcastInDim
  refine congrArg v (funext fun a => ?_)
  match a with
  | ⟨0, _⟩ =>
    apply Fin.ext
    have he := e.isLt
    split
    · next h1 => change n = 1 at h1; show (0 : ℕ) = e.val; omega
    · rfl

/-- A one-column matrix broadcast along the columns reads, at (e, q), the column at (e, 0). -/
theorem bcast_cols_apply {α : Type} {n m : ℕ} (h : (⟨2, ![n, 1]⟩ : Shape).BroadcastsInDim ⟨2, ![n, m]⟩ ![0, 1])
    (v : (⟨2, ![n, 1]⟩ : Shape).Idx → α) (e : Fin n) (q : Fin m) :
    broadcastInDim ⟨2, ![n, m]⟩ ![0, 1] h v (ix2 e q) = v (ix2 e (0 : Fin 1)) := by
  unfold broadcastInDim
  refine congrArg v (funext fun a => ?_)
  match a with
  | ⟨0, _⟩ =>
    apply Fin.ext
    have he := e.isLt
    split
    · next h1 => change n = 1 at h1; show (0 : ℕ) = e.val; omega
    · rfl
  | ⟨1, _⟩ =>
    apply Fin.ext
    split
    · rfl
    · next h1 => exact absurd rfl h1

/-- A scalar broadcast to any shape reads the scalar. -/
theorem bcast_scalar_apply {α : Type} {T : Shape} (h : (⟨0, ![]⟩ : Shape).BroadcastsInDim T ![])
    (v : (⟨0, ![]⟩ : Shape).Idx → α) (j : T.Idx) : broadcastInDim T ![] h v j = v ix0 := by
  unfold broadcastInDim
  exact congrArg v (funext fun a => a.elim0)

/-! The aggregate. -/

/-- The column words as the reference passes them to the gather — wrapped by the table's height where negative — read
    at an edge whose word is not negative: the word itself. -/
theorem wrap_col_apply (cols : IVec S640000 32) (hb hb' : S_.BroadcastsInDim S640000 ![]) (E : Fin 640000)
    (h0 : 0 ≤ (cols (ix1 E)).toInt) :
    select (cmpi .slt cols (broadcastInDim S640000 ![] hb (constantI S_ 32 0#32)))
      (addi cols (broadcastInDim S640000 ![] hb' (constantI S_ 32 40000#32))) cols (ix1 E) = cols (ix1 E) := by
  show Scalar.select (IntOp.cmpi .slt (cols (ix1 E)) (broadcastInDim S640000 ![] hb (constantI S_ 32 0#32) (ix1 E)))
      (IntOp.addi (cols (ix1 E)) (broadcastInDim S640000 ![] hb' (constantI S_ 32 40000#32) (ix1 E))) (cols (ix1 E)) = _
  rw [bcast_scalar_apply, bcast_scalar_apply]
  exact wrap_of_nonneg h0

/-- The reference's gather at (E, q), when the start index of edge E is a word in [0, 40000): the table at the row that
    word names, column q. -/
theorem gather_of_range [Cert.ReferenceIdeal.Facts] (x : FVec Ideal S40000x128 .f32) (idx : IVec S640000x1 32)
    (w : BitVec 32) (E : Fin 640000) (q : Fin 128) (hidx : idx (ix2 E (0 : Fin 1)) = w)
    (h0 : 0 ≤ w.toInt) (h1 : w.toInt < 40000) :
    Host.gather gather_S40000x128_S640000x1_S640000x128_1_0_n_n_0_1_1128 x idx (ix2 E q)
      = x (ix2 (⟨w.toNat, toNat_lt_of_toInt h0 h1⟩ : Fin 40000) q) := by
  rw [Gcn.Rows.gather_rows (N := 40000) (E := 640000) (C := 128)
    gather_S40000x128_S640000x1_S640000x128_1_0_n_n_0_1_1128 rfl rfl rfl rfl rfl rfl x idx E q (by norm_num)]
  refine congrArg (fun p : Fin 40000 => x (ix2 p q)) (Fin.ext ?_)
  show min (idx (ix2 E (0 : Fin 1))).toInt.toNat (40000 - 1) = w.toNat
  rw [hidx]
  exact clamp_of_range h0 h1

theorem refAgg_apply [Cert.ReferenceIdeal.Facts] (x : FVec Ideal S40000x128 .f32) (rows cols : IVec S640000 32) (av : FVec Ideal S640000 .f32)
    (hc : ∀ E : Fin 640000, 0 ≤ (cols (ix1 E)).toInt ∧ (cols (ix1 E)).toInt < 40000) (r : Fin 40000) (q : Fin 128) :
    refAgg x rows cols av (ix2 r q)
      = 0 + ∑ E : Fin 640000, if (rows (ix1 E)).toInt = (r.val : ℤ) then
          av (ix1 E) * x (ix2 (⟨(cols (ix1 E)).toNat, toNat_lt_of_toInt (hc E).1 (hc E).2⟩ : Fin 40000) q) else 0 := by
  unfold refAgg Host.scatterAdd
  rw [Ideal.hostScatterAdd_def]
  rw [Gcn.Rows.scatterAdd_rows (R := 40000) (E := 640000) (C := 128) scatter_S40000x128_S640000x1_S640000x128_1_0_0_1 rfl rfl rfl rfl]
  rw [bcast_scalar_apply, constant_apply, Ideal.ofBits_zero_f32]
  refine congrArg (0 + ·) (Finset.sum_congr rfl fun E _ => ?_)
  refine if_congr ?_ ?_ rfl
  · rw [bcast_col_apply]
  · rw [mulf_apply, bcast_cols_apply, bcast_col_apply]
    refine congrArg (av (ix1 E) * ·) ?_
    refine gather_of_range x _ (cols (ix1 E)) E q ?_ (hc E).1 (hc E).2
    rw [bcast_col_apply]
    exact wrap_col_apply cols _ _ E (hc E).1

end Spmm

end
-- ==== Proof.PreCols.lean ====
/-
  The precondition is a conjunction of five tests, each a reduction by `and` of an array of truth values over
  all its elements; the last two say that every column index of the edge list lies in [0, 40000), read signed. This
  module decodes those two conjuncts at one edge. The three float conjuncts are not used.
-/
import proofs.«402506_j36644660969839_1_alg».proof.Proof.Gen.Pre_finite_inputs
import Idealize.ShloMosaic.Lib.ReduceAll
import Idealize.ShloMosaic.Lib.ValueIdx

noncomputable section

namespace Spmm

open Idealize.ShloMosaic Idealize.ShloMosaic.ValueIdx

/-- A shape of rank 0 has exactly one index. -/
instance : Subsingleton Cert.Pre_finite_inputs.S_.Idx := ⟨fun a b => funext fun d => d.elim0⟩

/-- The two literals the column indices are compared with, read signed. -/
theorem toInt_zero32 : (0#32 : BitVec 32).toInt = 0 := by decide
theorem toInt_40000 : (40000#32 : BitVec 32).toInt = 40000 := by decide

/-- Under the precondition every column index, read signed, lies in [0, 40000). -/
theorem cols_in_range [Cert.Pre_finite_inputs.Facts]
    (a0 : FVec Ideal Cert.Pre_finite_inputs.S40000x128 .f32) (a1 a2 : IVec Cert.Pre_finite_inputs.S640000 32)
    (a3 : FVec Ideal Cert.Pre_finite_inputs.S640000 .f32) (a4 : FVec Ideal Cert.Pre_finite_inputs.S128 .f32)
    (h : Cert.Pre_finite_inputs.fn (F := Ideal) a0 a1 a2 a3 a4 = fun _ => 1#1) (E : Fin 640000) :
    0 ≤ (a2 (ix1 E)).toInt ∧ (a2 (ix1 E)).toInt < 40000 := by
  -- the scalar result at its one index, with the chain of operations in view
  have e := congrFun h ix0
  dsimp only [Cert.Pre_finite_inputs.fn, Cert.Pre_finite_inputs.fn_part1] at e
  -- the outer two `and`s: (floats ∧ all(cols ≥ 0)) ∧ all(cols < 40000)
  simp only [andi] at e
  rw [IntOp.andi_eq_one, IntOp.andi_eq_one] at e
  obtain ⟨⟨-, hge⟩, hlt⟩ := e
  -- each reduction by `and` that came out 1 met a 1 at edge E
  have g := Host.reduce_andi_all _ _ _ _ _ hge (ix1 E)
  have l := Host.reduce_andi_all _ _ _ _ _ hlt (ix1 E)
  -- a compare against a broadcast scalar, read at one element, is the compare of the word with the literal
  simp only [cmpi, broadcastInDim, constantI] at g l
  have g' := IntOp.cmpi_sge.1 g
  have l' := IntOp.cmpi_slt.1 l
  rw [toInt_zero32] at g'
  rw [toInt_40000] at l'
  exact ⟨g', l'⟩

end Spmm

end
-- ==== Proof.KernelValue.lean ====
/-
  The kernel program's result at the ideal instance.

  After the region the program slices the first 40000 rows off the padded aggregate and ends in the same tail as the
  reference. The padded aggregate is what the last grid point left: at (r, q) the contributions of all 625 blocks added
  one after the other, which is the sum over all edges whose row word is r of weight times the one-hot gather of the
  padded table at the edge's column word. A column word in [0, 40000) gathers exactly the table's row of that number,
  and the reference's gather clamps and wraps it to the same row: the two aggregates are one function.
-/
import proofs.«402506_j36644660969839_1_alg».proof.Proof.Points
import proofs.«402506_j36644660969839_1_alg».proof.Proof.Final
import proofs.«402506_j36644660969839_1_alg».proof.Proof.Algebra
import proofs.«402506_j36644660969839_1_alg».proof.Proof.RefAgg
import proofs.«402506_j36644660969839_1_alg».proof.Proof.PreCols
import Idealize.ShloMosaic.Lib.StableHlo.Run
import Idealize.ShloMosaic.Lib.Pipeline.Value

set_option maxRecDepth 16384

noncomputable section

namespace Cert.KernelIdeal.Gen

open Idealize.ShloMosaic Idealize.ShloMosaic.TcCoe Idealize.ShloMosaic.ValueIdx Idealize.SL.Sem Idealize.ShloMosaic.StableHlo
open Cert.KernelIdeal.Facts₀

/-- The kernel program's tail over its own shape records: the reference's tail of the first 40000 rows. -/
def tailK (aggp : FVec Ideal S40960x128 .f32) (rows : IVec S640000 32) (av : FVec Ideal S640000 .f32)
    (bias : FVec Ideal S128 .f32) : FVec Ideal S40000x128 .f32 :=
  addf (select (broadcastInDim S40000x128 ![0, 1] bcast_S40000x1_S40000x128_0_1 (cmpf .oeq (broadcastInDim S40000x1 ![0] bcast_S40000_S40000x1_0 (Host.scatterAdd scatter_S40000_S640000x1_S640000_n_0_0_1 (broadcastInDim S40000 ![] bcast_S_S40000 (constant (F := Ideal) S_ .f32 0x00000000#32)) (broadcastInDim S640000x1 ![0] bcast_S640000_S640000x1_0 rows) av)) (broadcastInDim S40000x1 ![] bcast_S_S40000x1 (constant (F := Ideal) S_ .f32 0x00000000#32)))) (broadcastInDim S40000x128 ![] bcast_S_S40000x128 (id (constant (F := Ideal) S_ .f32 0x00000000#32))) (Host.divf (extractStridedSlice S40000x128 ![0, 0] aggp slices_S40960x128_S40000x128_0_0) (broadcastInDim S40000x128 ![0, 1] bcast_S40000x1_S40000x128_0_1 (select (cmpf .oeq (broadcastInDim S40000x1 ![0] bcast_S40000_S40000x1_0 (Host.scatterAdd scatter_S40000_S640000x1_S640000_n_0_0_1 (broadcastInDim S40000 ![] bcast_S_S40000 (constant (F := Ideal) S_ .f32 0x00000000#32)) (broadcastInDim S640000x1 ![0] bcast_S640000_S640000x1_0 rows) av)) (broadcastInDim S40000x1 ![] bcast_S_S40000x1 (constant (F := Ideal) S_ .f32 0x00000000#32))) (broadcastInDim S40000x1 ![] bcast_S_S40000x1 (id (constant (F := Ideal) S_ .f32 0x3F800000#32))) (broadcastInDim S40000x1 ![0] bcast_S40000_S40000x1_0 (Host.scatterAdd scatter_S40000_S640000x1_S640000_n_0_0_1 (broadcastInDim S40000 ![] bcast_S_S40000 (constant (F := Ideal) S_ .f32 0x00000000#32)) (broadcastInDim S640000x1 ![0] bcast_S640000_S640000x1_0 rows) av)))))) (broadcastInDim S40000x128 ![0, 1] bcast_S1x128_S40000x128_0_1 (broadcastInDim S1x128 ![1] bcast_S128_S1x128_1 bias))

theorem tailK_eq (aggp : FVec Ideal S40960x128 .f32) (rows : IVec S640000 32) (av : FVec Ideal S640000 .f32)
    (bias : FVec Ideal S128 .f32) :
    tailK aggp rows av bias
      = Spmm.tail (extractStridedSlice S40000x128 ![0, 0] aggp slices_S40960x128_S40000x128_0_0) rows av bias := rfl

set_option maxHeartbeats 4000000 in
/-- The host operations after the region, from any contents of the buffers they read, leave the tail in the result. -/
theorem tail_of_valuation (Wv : Valuation τ sig (Elt Ideal)) :
    StableHlo.after (List.flatten [hostOps1, hostOps1_1, hostOps1_2, hostOps1_3, hostOps1_4]) Wv (Proc.devRef .tc main_v18)
      = tailK (Wv (Proc.devRef .tc main_v2)) (Wv (Proc.devRef .tc main_arg1)) (Wv (Proc.devRef .tc main_arg3))
          (Wv (Proc.devRef .tc main_arg4)) := by
  unfold tailK
  simp only [hostOps1, hostOps1_1, hostOps1_2, hostOps1_3, hostOps1_4, List.flatten_cons, List.flatten_nil, List.append_nil,
    List.cons_append, List.nil_append]
  after_results_simp
  simp only [TRef.toBuf, TRef.ofBuf, cast_eq]

variable (m : (ℓ : Loc nD τ sig) → Buf (Elt Ideal) ℓ) (ρ : Dev nD → PrngReg)

/-- The buffers as the host operations after the region find them: the pipeline's arrays as the run left them. -/
abbrev Wv (c : Dev nD) : Valuation τ sig (Elt Ideal) :=
  Pipeline.withArrays (cfgs 0).spec c (V0 m c) fun w => (dats m 0 c).arrAt w (cfgs 0).N

theorem Wv_out (c : Dev nD) : Wv m c (Proc.devRef .tc main_v2) = outsAt0 m c 624 Spmm.last_lt :=
  (Pipeline.withArrays_arr spec0 launch0.win.arr_inj c _ _ 4).trans (Spmm.out_final m c)

theorem Wv_rows (c : Dev nD) : Wv m c (Proc.devRef .tc main_arg1) = (m ((c : Thread nD τ).loc main_arg1)) :=
  (Pipeline.withArrays_arr spec0 launch0.win.arr_inj c _ _ 2).trans
    (((dats m 0 c).arrAt_in 2 rfl _).trans ((A_eq m c 2).trans (V_main_arg1 m c)))

theorem Wv_wts (c : Dev nD) : Wv m c (Proc.devRef .tc main_arg3) = (m ((c : Thread nD τ).loc main_arg3)) :=
  (Pipeline.withArrays_arr spec0 launch0.win.arr_inj c _ _ 3).trans
    (((dats m 0 c).arrAt_in 3 rfl _).trans ((A_eq m c 3).trans (V_main_arg3 m c)))

theorem Wv_bias (c : Dev nD) : Wv m c (Proc.devRef .tc main_arg4) = (m ((c : Thread nD τ).loc main_arg4)) :=
  (Pipeline.withArrays_of_ne _ c (V0 m c) _ main_arg4 (by exact (by decide : ∀ w, Pipeline.arrRef spec0 w ≠ main_arg4))).trans
    (V_main_arg4 m c)

/-- The kernel's aggregate: the first 40000 rows of what the last grid point left. -/
def kAgg (c : Dev nD) : FVec Ideal S40000x128 .f32 :=
  extractStridedSlice S40000x128 ![0, 0] (outsAt0 m c 624 Spmm.last_lt) slices_S40960x128_S40000x128_0_0

/-- The result buffer after the program: the tail of the kernel's aggregate. -/
theorem kernel_result (c : Dev nD) :
    Pipeline.afterTail₀ cfgs (dats m) 0 (V0 m) [hostOps1, hostOps1_1, hostOps1_2, hostOps1_3, hostOps1_4] c main_v18
      = Spmm.tail (kAgg m c) (m ((c : Thread nD τ).loc main_arg1)) (m ((c : Thread nD τ).loc main_arg3)) (m ((c : Thread nD τ).loc main_arg4)) := by
  unfold Pipeline.afterTail₀
  refine (tail_of_valuation (Wv m c)).trans ?_
  rw [tailK_eq, Wv_out, Wv_rows, Wv_wts, Wv_bias]
  rfl

end Cert.KernelIdeal.Gen

end
-- ==== Proof.KernelAgg.lean ====
/-
  The kernel program's run with its result named, and its aggregate against the reference's.

  Under the precondition every column word is in [0, 40000). Then, at every (r, q) with r < 40000, the first 40000 rows
  of what the last grid point left are the reference's segment sum: both are 0 plus the sum, over the edges whose row
  word reads r, of the edge's weight times row (column word) of the table at q.
-/
import proofs.«402506_j36644660969839_1_alg».proof.Proof.KernelValue

set_option maxRecDepth 16384

noncomputable section

namespace Cert.KernelIdeal.Gen

open Idealize.ShloMosaic Idealize.ShloMosaic.TcCoe Idealize.ShloMosaic.ValueIdx Idealize.SL.Sem
open Cert.KernelIdeal.Facts₀

variable (m : (ℓ : Loc nD τ sig) → Buf (Elt Ideal) ℓ) (ρ : Dev nD → PrngReg)

-- the launch theorem's implicit arguments are found by unifying plain definitions in a metavariable's type
set_option backward.isDefEq.respectTransparency.types false in
/-- Every weakly fair execution of the kernel program ends with the result at the tail of the kernel's aggregate and
    the arguments as they were. -/
theorem kernel_run : θ_run defs (onTc (τ := τ) (main (F := Ideal))) ⟨m, fun _ => 0, ρ⟩ (fun r => ∀ c : Dev nD,
      r.2.mem ((c.tc : Thread nD τ).loc main_v18)
        = Spmm.tail (kAgg m c) (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v18 (Pipeline.mem_restRefs_of main_v18 (by decide) (by decide))).trans (kernel_result m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

/-- Under the precondition the kernel's aggregate is the reference's. -/
theorem kAgg_eq (c : Dev nD)
    (hpre : Cert.Pre_finite_inputs.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) = fun _ => 1#1) :
    kAgg m c = Spmm.refAgg (m ((c.tc : Thread nD τ).loc main_arg0)) (m ((c.tc : Thread nD τ).loc main_arg1)) (m ((c.tc : Thread nD τ).loc main_arg2)) (m ((c.tc : Thread nD τ).loc main_arg3)) := by
  have hc := fun E : Fin 640000 => Spmm.cols_in_range _ _ _ _ _ hpre E
  funext j
  obtain ⟨r, q, rfl⟩ : ∃ (r : Fin 40000) (q : Fin 128), j = ix2 r q := ⟨j 0, j 1, eq_ix2 j⟩
  rw [Spmm.refAgg_apply _ _ _ _ hc r q]
  unfold kAgg
  have hr : r.val < 40960 := by have := r.isLt; omega
  rw [extractStridedSlice_apply ![0, 0] _ slices_S40960x128_S40000x128_0_0 (ix2 r q) (ix2 (⟨r.val, hr⟩ : Fin 40960) q)
    (fun a => by match a with | ⟨0, _⟩ => exact (Nat.zero_add _).symm | ⟨1, _⟩ => exact (Nat.zero_add _).symm)]
  rw [Spmm.outsAt0_apply m c 624 Spmm.last_lt ⟨r.val, hr⟩ q]
  refine (Spmm.runSum_blocks (Spmm.rowW m c) (Spmm.edgeTerm m c q) r).trans ?_
  refine congrArg (fun z : EReal => 0 + z) ?_
  refine Finset.sum_congr rfl fun E _ => ?_
  refine if_congr Iff.rfl ?_ rfl
  have hE := hc E
  have hlt : (Spmm.colW m c E).toNat < 40000 := Spmm.toNat_lt_of_toInt hE.1 hE.2
  show Spmm.wtW m c E * Spmm.gathAcc (Spmm.padTbl m c) (Spmm.colW m c E) q 20 = _
  rw [Spmm.gathAcc_full _ _ _ (by omega : (Spmm.colW m c E).toNat < 40960)]
  show _ * (V m c main_v1 : S40960x128.Idx → EReal) (ix2 _ q) = _
  rw [Spmm.xpad_apply, dif_pos hlt]

end Cert.KernelIdeal.Gen

end
-- ==== Proof.RefImports.lean ====
/- The reference program's run and its stages read at an index, brought in for the modules that speak of the reference. -/
import proofs.«402506_j36644660969839_1_alg».proof.Proof.Gen.ReferenceIdeal.Run
import proofs.«402506_j36644660969839_1_alg».proof.Proof.Gen.ReferenceIdeal.Read
-- ==== Proof.lean ====
/-
  A sparse matrix product with mean aggregation: for every row r of 40000 and column q of 128,
      out[r, q] = (Σ over the 640000 edges e with edge_rows[e] = r of adj_vals[e] · x[edge_cols[e], q]) / deg[r] + bias[q],
  deg[r] the sum of adj_vals over the same edges, a row of degree 0 giving bias alone.

  The kernel computes the sum without a gather or a scatter. It pads x with 960 zero rows and, per block of 1024 edges,
  builds one-hot matrices of the column words and of the row words against the node numbers 0 .. 40959, 2048 at a time:
  the product of the column one-hot with the padded table gathers each edge's row, the product of the transposed row
  one-hot with the weighted gathered rows adds each edge's row into its output row. The output block is the whole padded
  aggregate, zeroed at the first block, carried from block to block, written back after the last. The reference gathers
  and segment-sums. Over the extended reals a one-hot entry times a value is the value or 0 and sums may be taken in any
  order, so the kernel's aggregate is the sum over the edges whose row word is r of weight times table row (column word):
  the reference's aggregate, as soon as every column word names a row of the table, 0 ≤ edge_cols < 40000 — outside
  that range the reference's gather wraps and clamps where the kernel's one-hot finds no row. Row words need no such
  condition: a row word that names no row adds nowhere in both programs. Degree, division and bias are the same host
  operations in both programs.

  The three frames are the generated ones (the reference's is its generated run with the result dropped); the
  idealization rewrote nothing.
-/
import proofs.«402506_j36644660969839_1_alg».proof.Defs
import proofs.«402506_j36644660969839_1_alg».proof.Proof.Gen.Kernel.Frame
import proofs.«402506_j36644660969839_1_alg».proof.Proof.KernelAgg
import proofs.«402506_j36644660969839_1_alg».proof.Proof.RefImports
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the tail of one aggregate: the kernel's, the first 40000 rows of what its last grid point
    left, is the reference's segment sum wherever every column word names a row of the table. -/
theorem algebraic : Cert.algebraic_KernelIdeal_ReferenceIdeal := by
  intro m ρ m' ρ' hpre hagree
  refine ⟨fun c => Spmm.tail (Cert.KernelIdeal.Gen.kAgg m c) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Gen.kernel_run m ρ, ?_⟩
  refine (θ_run Cert.ReferenceIdeal.defs _ _).mono (fun _ h c => ⟨(h c).1.trans ?_, (h c).2⟩)
    (Cert.ReferenceIdeal.Value.run (F := Ideal) m' ρ')
  show Spmm.tail (Spmm.refAgg (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
    (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
  rw [(hagree c).1, (hagree c).2.1, (hagree c).2.2.1, (hagree c).2.2.2.1, (hagree c).2.2.2.2]
  exact (congrArg (fun a => Spmm.tail a (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
    (Cert.KernelIdeal.Gen.kAgg_eq m c (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
